-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x4096x64 : Shape := ⟨4, ![1, 16, 4096, 64]⟩
abbrev S1 : Shape := ⟨1, ![1]⟩
abbrev S_ : Shape := ⟨0, ![]⟩

class Facts : Prop where
  bcast_S_S1x16x4096x64 : S_.BroadcastsInDim S1x16x4096x64 (![] : Fin 0 → Fin S1x16x4096x64.rank)
  reducesTo_S1x16x4096x64_S_d0_1_2_3 : S1x16x4096x64.ReducesTo [0, 1, 2, 3] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S1x16x4096x64 .f32) (main_arg1 : FVec F S1x16x4096x64 .f32) (main_arg2 : FVec F S1x16x4096x64 .f32) (main_arg3 : FVec F S1 .f32) (main_arg4 : IVec S1 1) : IVec S_ 1 :=
  let main_v0 : FVec F S1x16x4096x64 .f32 := Host.absf main_arg0
  let main_cst : FVec F S_ .f32 := constant S_ .f32 0x7F800000#32
  let main_v1 : FVec F S1x16x4096x64 .f32 := broadcastInDim S1x16x4096x64 ![] bcast_S_S1x16x4096x64 main_cst
  let main_v2 : IVec S1x16x4096x64 1 := cmpf .olt main_v0 main_v1
  let main_c : IVec S_ 1 := constantI S_ 1 1#1
  let main_v3 : IVec S_ 1 := (fun x v => Host.reduce IntOp.andi x v reducesTo_S1x16x4096x64_S_d0_1_2_3 h_S_) main_v2 main_c
  let main_v4 : FVec F S1x16x4096x64 .f32 := Host.absf main_arg1
  let main_cst_0 : FVec F S_ .f32 := constant S_ .f32 0x7F800000#32
  let main_v5 : FVec F S1x16x4096x64 .f32 := broadcastInDim S1x16x4096x64 ![] bcast_S_S1x16x4096x64 main_cst_0
  let main_v6 : IVec S1x16x4096x64 1 := cmpf .olt main_v4 main_v5
  let main_c_1 : IVec S_ 1 := constantI S_ 1 1#1
  let main_v7 : IVec S_ 1 := (fun x v => Host.reduce IntOp.andi x v reducesTo_S1x16x4096x64_S_d0_1_2_3 h_S_) main_v6 main_c_1
  let main_v8 : IVec S_ 1 := andi main_v3 main_v7
  let main_v9 : FVec F S1x16x4096x64 .f32 := Host.absf main_arg2
  let main_cst_2 : FVec F S_ .f32 := constant S_ .f32 0x7F800000#32
  let main_v10 : FVec F S1x16x4096x64 .f32 := broadcastInDim S1x16x4096x64 ![] bcast_S_S1x16x4096x64 main_cst_2
  let main_v11 : IVec S1x16x4096x64 1 := cmpf .olt main_v9 main_v10
  let main_c_3 : IVec S_ 1 := constantI S_ 1 1#1
  let main_v12 : IVec S_ 1 := (fun x v => Host.reduce IntOp.andi x v reducesTo_S1x16x4096x64_S_d0_1_2_3 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S1x16x4096x64 : Shape := ⟨4, ![1, 16, 4096, 64]⟩
abbrev S1 : Shape := ⟨1, ![1]⟩
abbrev S1x1x1024x64 : Shape := ⟨4, ![1, 1, 1024, 64]⟩
abbrev S1x1x4096x64 : Shape := ⟨4, ![1, 1, 4096, 64]⟩
abbrev S1024x1 : Shape := ⟨2, ![1024, 1]⟩
abbrev S1024x64 : Shape := ⟨2, ![1024, 64]⟩
abbrev S1024x1024 : Shape := ⟨2, ![1024, 1024]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S1x16x4096x64, .f32⟩
  | .hbm, ⟨1, _⟩ => ⟨S1x16x4096x64, .f32⟩
  | .hbm, ⟨2, _⟩ => ⟨S1x16x4096x64, .f32⟩
  | .hbm, ⟨3, _⟩ => ⟨S1, .f32⟩
  | .hbm, ⟨4, _⟩ => ⟨S1, .i1⟩
  | .hbm, ⟨5, _⟩ => ⟨S1x16x4096x64, .bf16⟩
  | .hbm, ⟨6, _⟩ => ⟨S1x16x4096x64, .bf16⟩
  | .hbm, ⟨7, _⟩ => ⟨S1x16x4096x64, .bf16⟩
  | .hbm, ⟨8, _⟩ => ⟨S1x16x4096x64, .f32⟩
  | .local _ .vmem, ⟨0, _⟩ => ⟨S1x1x1024x64, .bf16⟩
  | .local _ .vmem, ⟨1, _⟩ => ⟨S1x1x1024x64, .bf16⟩
  | .local _ .vmem, ⟨2, _⟩ => ⟨S1x1x4096x64, .bf16⟩
  | .local _ .vmem, ⟨3, _⟩ => ⟨S1x1x4096x64, .bf16⟩
  | .local _ .vmem, ⟨4, _⟩ => ⟨S1x1x4096x64, .bf16⟩
  | .local _ .vmem, ⟨5, _⟩ => ⟨S1x1x4096x64, .bf16⟩
  | .local _ .vmem, ⟨6, _⟩ => ⟨S1x1x1024x64, .f32⟩
  | .local _ .vmem, ⟨7, _⟩ => ⟨S1x1x1024x64, .f32⟩
  | .local _ .vmem, ⟨8, _⟩ => ⟨S1024x1, .f32⟩
  | .local _ .vmem, ⟨9, _⟩ => ⟨S1024x1, .f32⟩
  | .local _ .vmem, ⟨10, _⟩ => ⟨S1024x64, .f32⟩
  | _, _ => ⟨S1x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c4_i32 : BitVec 32 := 4#32
  let v16 : BitVec 32 := Scalar.addi c0_i32 c4_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1024_i32 : BitVec 32 := 1024#32
  let v24 : BitVec 32 := Scalar.muli arg9 c1024_i32
  v24
def k0_off1 (k0_t1 : Fin k0_t1_loop.trips) : Fin 4 → Nat :=
  let c0_21 : Index := 0#32
  let c0_22 : Index := 0#32
  let c0_i32 : BitVec 32 := 0#32
  let c1_i32 : BitVec 32 := 1#32
  let arg9 : BitVec 32 := Scf.iv c0_i32 c1_i32 k0_t1
  let c1024_i32 : BitVec 32 := 1024#32
  let v24 : BitVec 32 := Scalar.muli arg9 c1024_i32
  let v25 : BitVec 32 := v24
  let v26 : Index := Scalar.indexCast v25
  let c0_23 : Index := 0#32
  ![0, 0, v26.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1x1024x64 : S1024x64.ShapeCasts S1x1x1024x64
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1x1024x64.size a ≤ S1x1x4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S1x16x4096x64.size a
  hwx0_0 : ∀ i : grid0.Coords, EltTy.bits .bf16 = 32 ∨ (Rect.block (s := S1x16x4096x64) S1x1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x64.size a ≤ S1x16x4096x64.size a
  hwx0_1 : ∀ i : grid0.Coords, EltTy.bits .bf16 = 32 ∨ (Rect.block (s := S1x16x4096x64) S1x1x4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x64.size a ≤ S1x16x4096x64.size a
  hwx0_2 : ∀ i : grid0.Coords, EltTy.bits .bf16 = 32 ∨ (Rect.block (s := S1x16x4096x64) S1x1x4096x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x64.size a ≤ S1x16x4096x64.size a
  hwx0_3 : ∀ i : grid0.Coords, EltTy.bits .f32 = 32 ∨ (Rect.block (s := S1x16x4096x64) S1x1x1024x64.size (cc0_transform_3 i) (hinb0_3 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x16x4096x64 : Shape := ⟨4, ![1, 16, 4096, 64]⟩
abbrev S1 : Shape := ⟨1, ![1]⟩
abbrev S1x16x4096x4096 : Shape := ⟨4, ![1, 16, 4096, 4096]⟩
abbrev S_ : Shape := ⟨0, ![]⟩
abbrev S1x16x4096 : Shape := ⟨3, ![1, 16, 4096]⟩
abbrev S1x16x4096x1 : Shape := ⟨4, ![1, 16, 4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S1x16x4096x64, .f32⟩
  | .hbm, ⟨1, _⟩ => ⟨S1x16x4096x64, .f32⟩
  | .hbm, ⟨2, _⟩ => ⟨S1x16x4096x64, .f32⟩
  | .hbm, ⟨3, _⟩ => ⟨S1, .f32⟩
  | .hbm, ⟨4, _⟩ => ⟨S1, .i1⟩
  | .hbm, ⟨5, _⟩ => ⟨S1x16x4096x4096, .f32⟩
  | .hbm, ⟨6, _⟩ => ⟨S_, .f32⟩
  | .hbm, ⟨7, _⟩ => ⟨S1x16x4096x4096, .f32⟩
  | .hbm, ⟨8, _⟩ => ⟨S1x16x4096x4096, .f32⟩
  | .hbm, ⟨9, _⟩ => ⟨S_, .f32⟩
  | .hbm, ⟨10, _⟩ => ⟨S1x16x4096, .f32⟩
  | .hbm, ⟨11, _⟩ => ⟨S_, .f32⟩
  | .hbm, ⟨12, _⟩ => ⟨S1x16x4096, .f32⟩
  | .hbm, ⟨13, _⟩ => ⟨S1x16x4096, .f32⟩
  | .hbm, ⟨14, _⟩ => ⟨S1x16x4096x1, .f32⟩
  | .hbm, ⟨15, _⟩ => ⟨S1x16x4096x4096, .f32⟩
  | .hbm, ⟨16, _⟩ => ⟨S1x16x4096x4096, .f32⟩
  | .hbm, ⟨17, _⟩ => ⟨S1x16x4096x4096, .f32⟩
  | .hbm, ⟨18, _⟩ => ⟨S_, .f32⟩
  | .hbm, ⟨19, _⟩ => ⟨S1x16x4096, .f32⟩
  | .hbm, ⟨20, _⟩ => ⟨S1x16x4096x1, .f32⟩
  | .hbm, ⟨21, _⟩ => ⟨S1x16x4096x4096, .f32⟩
  | .hbm, ⟨22, _⟩ => ⟨S1x16x4096x4096, .f32⟩
  | .hbm, ⟨23, _⟩ => ⟨S1x16x4096x64, .f32⟩
  | _, _ => ⟨S1x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S1x16x4096x4096 : S_.BroadcastsInDim S1x16x4096x4096 (![] : Fin 0 → Fin S1x16x4096x4096.rank)
  reducesTo_S1x16x4096x4096_S1x16x4096_d3 : S1x16x4096x4096.ReducesTo [3] S1x16x4096
  h_S_ : 0 < S_.numel
  bcast_S_S1x16x4096 : S_.BroadcastsInDim S1x16x4096 (![] : Fin 0 → Fin S1x16x4096.rank)
  bcast_S1x16x4096_S1x16x4096x1_0_1_2 : S1x16x4096.BroadcastsInDim S1x16x4096x1 (![0, 1, 2] : Fin 3 → Fin S1x16x4096x1.rank)
  bcast_S1x16x4096x1_S1x16x4096x4096_0_1_2_3 : S1x16x4096x1.BroadcastsInDim S1x16x4096x4096 (![0, 1, 2, 3] : Fin 4 → Fin S1x16x4096x4096.rank)
  dot_S1x16x4096x64_S1x16x4096x64_S1x16x4096x4096_3_3_2_2_01_01_wf : DotDims.WF S1x16x4096x64 S1x16x4096x64 S1x16x4096x4096 [3] [3] [2] [2] [0, 1] [0, 1]
  dot_S1x16x4096x4096_S1x16x4096x64_S1x16x4096x64_3_2_2_3_01_01_wf : DotDims.WF S1x16x4096x4096 S1x16x4096x64 S1x16x4096x64 [3] [2] [2] [3] [0, 1] [0, 1]

variable [Facts₀]

def dot_S1x16x4096x64_S1x16x4096x64_S1x16x4096x4096_3_3_2_2_01_01 : DotDims S1x16x4096x64 S1x16x4096x64 S1x16x4096x4096 where
  lhsContracting := [3]
  rhsContracting := [3]
  lhsNonContracting := [2]
  rhsNonContracting := [2]
  lhsBatch := [0, 1]
  rhsBatch := [0, 1]
  wf := dot_S1x16x4096x64_S1x16x4096x64_S1x16x4096x4096_3_3_2_2_01_01_wf
def dot_S1x16x4096x4096_S1x16x4096x64_S1x16x4096x64_3_2_2_3_01_01 : DotDims S1x16x4096x4096 S1x16x4096x64 S1x16x4096x64 where
  lhsContracting := [3]
  rhsContracting := [2]
  lhsNonContracting := [2]
  rhsNonContracting := [3]
  lhsBatch := [0, 1]
  rhsBatch := [0, 1]
  wf := dot_S1x16x4096x4096_S1x16x4096x64_S1x16x4096x64_3_2_2_3_01_01_wf

class Facts : Prop extends Facts₀ where

variable [Facts]
-- ==== Proof.Pieces.lean ====
/-
  What the kernel body leaves in its output block, as a function of its three input blocks. The body keeps three
  scratch arrays (a reference point and a sum of weights per query row, and a weighted sum of value rows); it sets
  them, runs four passes, each over the next 1024 key and value rows, and divides at the end. Every store of the
  body overwrites a whole buffer and every load reads a whole buffer (or 1024 whole rows of the keys and values),
  so after `k` passes the three buffers hold the `k`-th iterate of one pure function of the blocks, and the output
  is the quotient of the last iterate. Nothing here depends on what the arithmetic is: it holds at every reading
  of the floats.
-/
import proofs.«427505_j39676907882138_3_alg».proof.Proof.Gen.KernelIdeal.Frame
import Idealize.ShloMosaic.Lib.Pipeline.Value
import Idealize.ShloMosaic.Lib.WholeRead

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-! ## Reading a whole buffer after a whole-buffer store -/

/-- A load of a whole buffer, after a list of stores whose latest one overwrote the whole buffer, reads that
    store's value: the earlier stores and the contents before them are gone. -/
theorem readAt_whole_writes_cons {sig : RefSig} {κ : Kind} {sp : Space} {S : Shape} {e : EltTy}
    (v : View sig κ sp S e) (f : v.ty.Contents (Elt F)) {off off' : Fin S.rank → ℕ}
    (h : off = fun _ => 0) (h' : off' = fun _ => 0)
    (inb : ∀ a, off a + S.size a ≤ S.size a) (inb' : ∀ a, off' a + S.size a ≤ S.size a)
    (w : S.Idx → Elt F e) (L : List (View.Piece (Elt F) S e)) :
    v.readAt (Elt F) (Rect.unit off' S.size inb').toLoadRect
        (v.writes (Elt F) f ((⟨Rect.unit off S.size inb, w⟩ : View.Piece (Elt F) S e) :: L)) = w := by
  rw [View.readAt_eq_ld,
    View.read_writes_eq_canon v f _ (fun y => ⟨_, List.mem_cons_self, View.mem_set_unit_zero h inb y⟩),
    View.canon_cons_unit_zero h inb, View.ld_unit_zero h' inb']

/-! ## The three scratch arrays after each pass -/

/-- The 1024 key (or value) rows pass `k` reads: rows 1024 k, …, 1024 k + 1023 of the head's 4096. -/
def rows (X : Vec F S1x1x4096x64 .bf16) (k : Fin k0_t1_loop.trips) : Vec F S1x1x1024x64 .bf16 :=
  View.ld X (Rect.unit (s := S1x1x4096x64) (k0_off1 k) S1x1x1024x64.size (Facts₀.k0_off1_inb k))

/-- The reference points, the sums of weights and the weighted sums, as one value. -/
abbrev State (F : FTy → Type) : Type := Vec F S1024x1 .f32 × Vec F S1024x1 .f32 × Vec F S1024x64 .f32

/-- One pass: each of the three arrays is replaced by a function of the pre-scaled query rows `q'`, the pass's key and
    value rows, and the three arrays as the pass found them. -/
def pass (q' : FVec F S1024x64 .bf16) (K V : Vec F S1x1x4096x64 .bf16) (k : Fin k0_t1_loop.trips) (s : State F) : State F :=
  (k0_pay5 (k0_pay8 q' (rows K k) s.1), k0_pay11 q' (rows K k) s.1 s.2.1, k0_pay12 q' (rows K k) (rows V k) s.1 s.2.2)

/-- The arrays after `k` passes, from what the body sets them to. -/
def after (q' : FVec F S1024x64 .bf16) (K V : Vec F S1x1x4096x64 .bf16) : ℕ → State F
  | 0 => (k0_pay2, k0_pay3, k0_pay4)
  | k + 1 => if h : k < k0_t1_loop.trips then pass q' K V ⟨k, h⟩ (after q' K V k) else after q' K V k

theorem after_succ (q' : FVec F S1024x64 .bf16) (K V : Vec F S1x1x4096x64 .bf16) (k : Fin k0_t1_loop.trips) :
    after q' K V (k.val + 1) = pass q' K V k (after q' K V k.val) := by
  rw [after]; exact dif_pos k.isLt

/-! ## The stores of one pass, and of the whole body -/

/-- The stores of pass `k`, read off the pass's run once: one whole-buffer store into each scratch array, of the
    pass's function of what a whole-buffer load finds in them and of the pass's key and value rows. -/
theorem pass_stores (𝒱 : Variants) (bd : Option 𝒱.V) (c : Dev nD) (i : grid0.Coords) (arg2 : Memref sig .tc .vmem S1x1x1024x64 .bf16) (harg2 : arg2.IsWhole) (arg3 : Memref sig .tc .vmem S1x1x4096x64 .bf16) (harg3 : arg3.IsWhole) (arg4 : Memref sig .tc .vmem S1x1x4096x64 .bf16) (harg4 : arg4.IsWhole) (arg5 : Memref sig .tc .vmem S1x1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole)
    (v0 : Vec F S1x1x1024x64 .bf16) (X3 : BufTy.Contents (Elt F) arg3.view.ty) (X4 : BufTy.Contents (Elt F) arg4.view.ty)
    (k : Fin k0_t1_loop.trips)
    (f6 : BufTy.Contents (Elt F) arg6.view.ty) (f7 : BufTy.Contents (Elt F) arg7.view.ty) (f8 : BufTy.Contents (Elt F) arg8.view.ty) :
    tripL_k0_t1 (F := F) 𝒱 c bd i arg2 harg2 arg3 harg3 arg4 harg4 arg5 harg5 arg6 harg6 arg7 harg7 arg8 harg8 v0 X3 X4 k f6 f7 f8
      = ([⟨(Rect.unit (s := S1024x1) ![0, 0] S1024x1.size Facts₀.inb_S1024x1_S1024x1_0_0), k0_pay5 (k0_pay8 (k0_pay1 v0)
              (View.readAt (Elt F) arg3.view (Rect.unit (s := S1x1x4096x64) (k0_off1 k) S1x1x1024x64.size (Facts₀.k0_off1_inb k)).toLoadRect X3)
              (View.readAt (Elt F) arg6.view (Rect.unit (s := S1024x1) ![0, 0] S1024x1.size Facts₀.inb_S1024x1_S1024x1_0_0).toLoadRect f6))⟩],
         [⟨(Rect.unit (s := S1024x1) ![0, 0] S1024x1.size Facts₀.inb_S1024x1_S1024x1_0_0), k0_pay11 (k0_pay1 v0)
              (View.readAt (Elt F) arg3.view (Rect.unit (s := S1x1x4096x64) (k0_off1 k) S1x1x1024x64.size (Facts₀.k0_off1_inb k)).toLoadRect X3)
              (View.readAt (Elt F) arg6.view (Rect.unit (s := S1024x1) ![0, 0] S1024x1.size Facts₀.inb_S1024x1_S1024x1_0_0).toLoadRect f6)
              (View.readAt (Elt F) arg7.view (Rect.unit (s := S1024x1) ![0, 0] S1024x1.size Facts₀.inb_S1024x1_S1024x1_0_0).toLoadRect f7)⟩],
         [⟨(Rect.unit (s := S1024x64) ![0, 0] S1024x64.size Facts₀.inb_S1024x64_S1024x64_0_0), k0_pay12 (k0_pay1 v0)
              (View.readAt (Elt F) arg3.view (Rect.unit (s := S1x1x4096x64) (k0_off1 k) S1x1x1024x64.size (Facts₀.k0_off1_inb k)).toLoadRect X3)
              (View.readAt (Elt F) arg4.view (Rect.unit (s := S1x1x4096x64) (k0_off1 k) S1x1x1024x64.size (Facts₀.k0_off1_inb k)).toLoadRect X4)
              (View.readAt (Elt F) arg6.view (Rect.unit (s := S1024x1) ![0, 0] S1024x1.size Facts₀.inb_S1024x1_S1024x1_0_0).toLoadRect f6)
              (View.readAt (Elt F) arg8.view (Rect.unit (s := S1024x64) ![0, 0] S1024x64.size Facts₀.inb_S1024x64_S1024x64_0_0).toLoadRect f8)⟩]) := by
  unfold tripL_k0_t1 trip_k0_t1
  dsimp only
  sl_unfold_run_names
  rfl

/-! ## The arrays after `k` passes are the `k`-th iterate -/

theorem zero2 : (![0, 0] : Fin S1024x1.rank → ℕ) = fun _ => 0 := by
  funext a; match a with | ⟨0, _⟩ => rfl | ⟨1, _⟩ => rfl
theorem zero2' : (![0, 0] : Fin S1024x64.rank → ℕ) = fun _ => 0 := by
  funext a; match a with | ⟨0, _⟩ => rfl | ⟨1, _⟩ => rfl
theorem zero4 : (![0, 0, 0, 0] : Fin S1x1x1024x64.rank → ℕ) = fun _ => 0 := by
  funext a; match a with | ⟨0, _⟩ => rfl | ⟨1, _⟩ => rfl | ⟨2, _⟩ => rfl | ⟨3, _⟩ => rfl

/-- The rows a pass loads, from staging buffers that hold the head's keys (or values) `X`. -/
theorem readAt_rows (a : Memref sig .tc .vmem S1x1x4096x64 .bf16) (ha : a.IsWhole) (X : Vec F S1x1x4096x64 .bf16)
    (k : Fin k0_t1_loop.trips) :
    View.readAt (Elt F) a.view (Rect.unit (s := S1x1x4096x64) (k0_off1 k) S1x1x1024x64.size (Facts₀.k0_off1_inb k)).toLoadRect (ha.unread X) = rows X k := by
  rw [View.readAt_eq_ld, ha.read_unread]; rfl

/-- After `k` passes (`k` at most the loop's four), a whole-buffer load of each scratch array — which holds the stores
    of those passes over what the body set it to — reads the `k`-th iterate: by induction on `k`, each pass storing
    whole buffers computed from whole-buffer loads of the previous contents. -/
theorem passes_read (c : Dev nD) (i : grid0.Coords) (arg2 : Memref sig .tc .vmem S1x1x1024x64 .bf16) (harg2 : arg2.IsWhole) (arg3 : Memref sig .tc .vmem S1x1x4096x64 .bf16) (harg3 : arg3.IsWhole) (arg4 : Memref sig .tc .vmem S1x1x4096x64 .bf16) (harg4 : arg4.IsWhole) (arg5 : Memref sig .tc .vmem S1x1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole)
    (v0 : Vec F S1x1x1024x64 .bf16) (x1 x2 : Vec F S1x1x4096x64 .bf16) :
    ∀ k : ℕ, k ≤ k0_t1_loop.trips →
      View.readAt (Elt F) arg6.view (Rect.unit (s := S1024x1) ![0, 0] S1024x1.size Facts₀.inb_S1024x1_S1024x1_0_0).toLoadRect (arg6.view.writes (Elt F) (arg6.view.writes (Elt F) arg6.view.junk [(⟨(Rect.unit (s := S1024x1) ![0, 0] S1024x1.size Facts₀.inb_S1024x1_S1024x1_0_0), k0_pay2⟩ : View.Piece (Elt F) S1024x1 .f32)]) (pb_k0_t1 (F := F) Variants.none c none i arg2 harg2 arg3 harg3 arg4 harg4 arg5 harg5 arg6 harg6 arg7 harg7 arg8 harg8 v0 (harg3.unread x1) (harg4.unread x2) (arg6.view.writes (Elt F) arg6.view.junk [(⟨(Rect.unit (s := S1024x1) ![0, 0] S1024x1.size Facts₀.inb_S1024x1_S1024x1_0_0), k0_pay2⟩ : View.Piece (Elt F) S1024x1 .f32)]) (arg7.view.writes (Elt F) arg7.view.junk [(⟨(Rect.unit (s := S1024x1) ![0, 0] S1024x1.size Facts₀.inb_S1024x1_S1024x1_0_0), k0_pay3⟩ : View.Piece (Elt F) S1024x1 .f32)]) (arg8.view.writes (Elt F) arg8.view.junk [(⟨(Rect.unit (s := S1024x64) ![0, 0] S1024x64.size Facts₀.inb_S1024x64_S1024x64_0_0), k0_pay4⟩ : View.Piece (Elt F) S1024x64 .f32)]) k).1)
          = (after (k0_pay1 v0) x1 x2 k).1
      ∧ View.readAt (Elt F) arg7.view (Rect.unit (s := S1024x1) ![0, 0] S1024x1.size Facts₀.inb_S1024x1_S1024x1_0_0).toLoadRect (arg7.view.writes (Elt F) (arg7.view.writes (Elt F) arg7.view.junk [(⟨(Rect.unit (s := S1024x1) ![0, 0] S1024x1.size Facts₀.inb_S1024x1_S1024x1_0_0), k0_pay3⟩ : View.Piece (Elt F) S1024x1 .f32)]) (pb_k0_t1 (F := F) Variants.none c none i arg2 harg2 arg3 harg3 arg4 harg4 arg5 harg5 arg6 harg6 arg7 harg7 arg8 harg8 v0 (harg3.unread x1) (harg4.unread x2) (arg6.view.writes (Elt F) arg6.view.junk [(⟨(Rect.unit (s := S1024x1) ![0, 0] S1024x1.size Facts₀.inb_S1024x1_S1024x1_0_0), k0_pay2⟩ : View.Piece (Elt F) S1024x1 .f32)]) (arg7.view.writes (Elt F) arg7.view.junk [(⟨(Rect.unit (s := S1024x1) ![0, 0] S1024x1.size Facts₀.inb_S1024x1_S1024x1_0_0), k0_pay3⟩ : View.Piece (Elt F) S1024x1 .f32)]) (arg8.view.writes (Elt F) arg8.view.junk [(⟨(Rect.unit (s := S1024x64) ![0, 0] S1024x64.size Facts₀.inb_S1024x64_S1024x64_0_0), k0_pay4⟩ : View.Piece (Elt F) S1024x64 .f32)]) k).2.1)
          = (after (k0_pay1 v0) x1 x2 k).2.1
      ∧ View.readAt (Elt F) arg8.view (Rect.unit (s := S1024x64) ![0, 0] S1024x64.size Facts₀.inb_S1024x64_S1024x64_0_0).toLoadRect (arg8.view.writes (Elt F) (arg8.view.writes (Elt F) arg8.view.junk [(⟨(Rect.unit (s := S1024x64) ![0, 0] S1024x64.size Facts₀.inb_S1024x64_S1024x64_0_0), k0_pay4⟩ : View.Piece (Elt F) S1024x64 .f32)]) (pb_k0_t1 (F := F) Variants.none c none i arg2 harg2 arg3 harg3 arg4 harg4 arg5 harg5 arg6 harg6 arg7 harg7 arg8 harg8 v0 (harg3.unread x1) (harg4.unread x2) (arg6.view.writes (Elt F) arg6.view.junk [(⟨(Rect.unit (s := S1024x1) ![0, 0] S1024x1.size Facts₀.inb_S1024x1_S1024x1_0_0), k0_pay2⟩ : View.Piece (Elt F) S1024x1 .f32)]) (arg7.view.writes (Elt F) arg7.view.junk [(⟨(Rect.unit (s := S1024x1) ![0, 0] S1024x1.size Facts₀.inb_S1024x1_S1024x1_0_0), k0_pay3⟩ : View.Piece (Elt F) S1024x1 .f32)]) (arg8.view.writes (Elt F) arg8.view.junk [(⟨(Rect.unit (s := S1024x64) ![0, 0] S1024x64.size Facts₀.inb_S1024x64_S1024x64_0_0), k0_pay4⟩ : View.Piece (Elt F) S1024x64 .f32)]) k).2.2)
          = (after (k0_pay1 v0) x1 x2 k).2.2 := by
  intro k
  induction k with
  | zero =>
    intro _
    rw [pb_k0_t1.eq_1]
    dsimp only
    rw [View.writes_nil, View.writes_nil, View.writes_nil]
    exact ⟨readAt_whole_writes_cons _ _ zero2 zero2 _ _ _ [], readAt_whole_writes_cons _ _ zero2 zero2 _ _ _ [],
      readAt_whole_writes_cons _ _ zero2' zero2' _ _ _ []⟩
  | succ k ih =>
    intro hk
    have hlt : k < k0_t1_loop.trips := hk
    obtain ⟨ih6, ih7, ih8⟩ := ih (Nat.le_of_lt hlt)
    rw [pb_k0_t1.eq_2]
    unfold pb_k0_t1Step
    rw [dif_pos hlt, pass_stores]
    dsimp only [List.cons_append, List.nil_append]
    rw [readAt_whole_writes_cons _ _ zero2 zero2, readAt_whole_writes_cons _ _ zero2 zero2,
      readAt_whole_writes_cons _ _ zero2' zero2', ih6, ih7, ih8,
      readAt_rows arg3 harg3 x1 ⟨k, hlt⟩, readAt_rows arg4 harg4 x2 ⟨k, hlt⟩]
    have e := after_succ (k0_pay1 v0) x1 x2 ⟨k, hlt⟩
    dsimp only at e
    rw [e]
    exact ⟨rfl, rfl, rfl⟩

/-! ## The whole body -/

/-- The body's one store into the output block, read off its run once: after the four passes, the quotient payload of
    whole-buffer loads of the weighted sums and of the sums of weights. -/
theorem body_stores (c : Dev nD) (i : grid0.Coords) (arg2 : Memref sig .tc .vmem S1x1x1024x64 .bf16) (harg2 : arg2.IsWhole) (arg3 : Memref sig .tc .vmem S1x1x4096x64 .bf16) (harg3 : arg3.IsWhole) (arg4 : Memref sig .tc .vmem S1x1x4096x64 .bf16) (harg4 : arg4.IsWhole) (arg5 : Memref sig .tc .vmem S1x1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole)
    (x0 : Vec F S1x1x1024x64 .bf16) (x1 x2 : Vec F S1x1x4096x64 .bf16) :
    (kernelRun0_A (F := F) c i arg2 harg2 arg3 harg3 arg4 harg4 arg5 harg5 arg6 harg6 arg7 harg7 arg8 harg8 x0 x1 x2).1
      = [⟨(Rect.unit (s := S1x1x1024x64) ![0, 0, 0, 0] S1x1x1024x64.size Facts₀.inb_S1x1x1024x64_S1x1x1024x64_0_0_0_0), k0_pay6
          (View.readAt (Elt F) arg8.view (Rect.unit (s := S1024x64) ![0, 0] S1024x64.size Facts₀.inb_S1024x64_S1024x64_0_0).toLoadRect
            (arg8.view.writes (Elt F) arg8.view.junk ((pb_k0_t1 (F := F) Variants.none c none i arg2 harg2 arg3 harg3 arg4 harg4 arg5 harg5 arg6 harg6 arg7 harg7 arg8 harg8 (View.readAt (Elt F) arg2.view (Rect.unit (s := S1x1x1024x64) ![0, 0, 0, 0] S1x1x1024x64.size Facts₀.inb_S1x1x1024x64_S1x1x1024x64_0_0_0_0).toLoadRect (harg2.unread x0)) (harg3.unread x1) (harg4.unread x2) (arg6.view.writes (Elt F) arg6.view.junk [(⟨(Rect.unit (s := S1024x1) ![0, 0] S1024x1.size Facts₀.inb_S1024x1_S1024x1_0_0), k0_pay2⟩ : View.Piece (Elt F) S1024x1 .f32)]) (arg7.view.writes (Elt F) arg7.view.junk [(⟨(Rect.unit (s := S1024x1) ![0, 0] S1024x1.size Facts₀.inb_S1024x1_S1024x1_0_0), k0_pay3⟩ : View.Piece (Elt F) S1024x1 .f32)]) (arg8.view.writes (Elt F) arg8.view.junk [(⟨(Rect.unit (s := S1024x64) ![0, 0] S1024x64.size Facts₀.inb_S1024x64_S1024x64_0_0), k0_pay4⟩ : View.Piece (Elt F) S1024x64 .f32)]) (Scf.trips k0_t1_loop.lb k0_t1_loop.ub k0_t1_loop.st)).2.2 ++ [(⟨(Rect.unit (s := S1024x64) ![0, 0] S1024x64.size Facts₀.inb_S1024x64_S1024x64_0_0), k0_pay4⟩ : View.Piece (Elt F) S1024x64 .f32)])))
          (View.readAt (Elt F) arg7.view (Rect.unit (s := S1024x1) ![0, 0] S1024x1.size Facts₀.inb_S1024x1_S1024x1_0_0).toLoadRect
            (arg7.view.writes (Elt F) arg7.view.junk ((pb_k0_t1 (F := F) Variants.none c none i arg2 harg2 arg3 harg3 arg4 harg4 arg5 harg5 arg6 harg6 arg7 harg7 arg8 harg8 (View.readAt (Elt F) arg2.view (Rect.unit (s := S1x1x1024x64) ![0, 0, 0, 0] S1x1x1024x64.size Facts₀.inb_S1x1x1024x64_S1x1x1024x64_0_0_0_0).toLoadRect (harg2.unread x0)) (harg3.unread x1) (harg4.unread x2) (arg6.view.writes (Elt F) arg6.view.junk [(⟨(Rect.unit (s := S1024x1) ![0, 0] S1024x1.size Facts₀.inb_S1024x1_S1024x1_0_0), k0_pay2⟩ : View.Piece (Elt F) S1024x1 .f32)]) (arg7.view.writes (Elt F) arg7.view.junk [(⟨(Rect.unit (s := S1024x1) ![0, 0] S1024x1.size Facts₀.inb_S1024x1_S1024x1_0_0), k0_pay3⟩ : View.Piece (Elt F) S1024x1 .f32)]) (arg8.view.writes (Elt F) arg8.view.junk [(⟨(Rect.unit (s := S1024x64) ![0, 0] S1024x64.size Facts₀.inb_S1024x64_S1024x64_0_0), k0_pay4⟩ : View.Piece (Elt F) S1024x64 .f32)]) (Scf.trips k0_t1_loop.lb k0_t1_loop.ub k0_t1_loop.st)).2.1 ++ [(⟨(Rect.unit (s := S1024x1) ![0, 0] S1024x1.size Facts₀.inb_S1024x1_S1024x1_0_0), k0_pay3⟩ : View.Piece (Elt F) S1024x1 .f32)])))⟩] := by
  unfold kernelRun0_A
  dsimp only
  sl_unfold_run_names
  rfl

/-- WHAT THE BODY LEAVES IN THE OUTPUT BLOCK: the weighted sums after the fourth pass over the sums of weights after
    the fourth pass, both as the iterates of the pure pass function from the three input blocks. -/
theorem out_block (c : Dev nD) (i : grid0.Coords) (arg2 : Memref sig .tc .vmem S1x1x1024x64 .bf16) (harg2 : arg2.IsWhole) (arg3 : Memref sig .tc .vmem S1x1x4096x64 .bf16) (harg3 : arg3.IsWhole) (arg4 : Memref sig .tc .vmem S1x1x4096x64 .bf16) (harg4 : arg4.IsWhole) (arg5 : Memref sig .tc .vmem S1x1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole)
    (x0 : Vec F S1x1x1024x64 .bf16) (x1 x2 : Vec F S1x1x4096x64 .bf16) :
    out0_A_3 (F := F) c i arg2 harg2 arg3 harg3 arg4 harg4 arg5 harg5 arg6 harg6 arg7 harg7 arg8 harg8 x0 x1 x2
      = k0_pay6 (after (k0_pay1 x0) x1 x2 k0_t1_loop.trips).2.2 (after (k0_pay1 x0) x1 x2 k0_t1_loop.trips).2.1 := by
  unfold out0_A_3
  rw [body_stores, View.read_writes_junk_eq_canon, View.canon_unit_zero zero4, View.writes_append, View.writes_append]
  obtain ⟨-, h7, h8⟩ := passes_read c i arg2 harg2 arg3 harg3 arg4 harg4 arg5 harg5 arg6 harg6 arg7 harg7 arg8 harg8 (View.readAt (Elt F) arg2.view (Rect.unit (s := S1x1x1024x64) ![0, 0, 0, 0] S1x1x1024x64.size Facts₀.inb_S1x1x1024x64_S1x1x1024x64_0_0_0_0).toLoadRect (harg2.unread x0)) x1 x2 k0_t1_loop.trips (Nat.le_refl _)
  have hv : (View.readAt (Elt F) arg2.view (Rect.unit (s := S1x1x1024x64) ![0, 0, 0, 0] S1x1x1024x64.size Facts₀.inb_S1x1x1024x64_S1x1x1024x64_0_0_0_0).toLoadRect (harg2.unread x0)) = x0 := by
    rw [View.readAt_eq_ld, harg2.read_unread, View.ld_unit_zero zero4]
  rw [show (Scf.trips k0_t1_loop.lb k0_t1_loop.ub k0_t1_loop.st) = k0_t1_loop.trips from rfl, h7, h8, hv]

end Cert.KernelIdeal.Pieces

end
-- ==== Proof.Payloads.lean ====
/-
  The kernel body's arithmetic, entry by entry, on the extended reals. One pass over a block of 1024 key rows:
  the scores are the inner products of the (pre-scaled) query rows with the block's key rows; the new reference
  point of a row is the larger of the old one and the block's largest score; the running sum of weights and the
  running weighted sum of value rows are rescaled by exp(old - new) and receive the block's terms exp(score - new);
  after the last block the output is the weighted sum divided by the sum of weights. A change of float format is
  the identity here, and the casts between [1024] and [1024, 1], and between [1, 1, 1024, 64] and [1024, 64], only
  rename indices.
-/
import proofs.«427505_j39676907882138_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- The scale folded into the query rows is exactly one sixteenth. -/
theorem sixteenth_bf16 : Ideal.ofBits .bf16 0x3D80#16 = ((1 / 16 : ℝ) : EReal) := by
  simp [Ideal.ofBits, Ideal.ieee, -EReal.coe_mul]; norm_num

/-- The number the running reference point starts from is finite. -/
theorem neg_init_real : ∃ r : ℝ, Ideal.ofBits .f32 0xFF333332#32 = (r : EReal) := by
  refine ⟨-1 * ((2 ^ 23 + 0x333332 : ℕ) : ℝ) * (2 : ℝ) ^ ((254 : ℤ) - (2 ^ (8 - 1) - 1) - (23 : ℕ) : ℤ), ?_⟩
  simp [Ideal.ofBits, Ideal.ieee, -EReal.coe_mul]

section Layout
variable {α : Type}

/-- A `[1, 1, a, b]` array cast to `[a, b]` reads, at `(i, j)`, the operand at `(0, 0, i, j)`: both row-major
    positions are `i * b + j`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, w, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-- The pre-scaled query rows. -/
theorem pay1_apply (v0 : Vec Ideal S1x1x1024x64 .bf16) (r : Fin 1024) (e : Fin 64) :
    k0_pay1 (F := Ideal) v0 (ix2 r e) = v0 (ix4 0 0 r e) * Ideal.ofBits .bf16 0x3D80#16 := by
  unfold k0_pay1
  show shapeCast S1024x64 v0 shapeCasts_S1x1x1024x64_S1024x64 (ix2 r e) * Ideal.ofBits .bf16 0x3D80#16 = _
  rw [shapeCast_11ab_ab_apply]

/-- What the three scratch buffers start from. -/
theorem pay2_apply (r : Fin 1024) : (k0_pay2 (F := Ideal)) (ix2 r 0) = Ideal.ofBits .f32 0xFF333332#32 := by
  unfold k0_pay2
  refine (congrFun (shapeCast_self _ _) _).trans ?_
  rfl
theorem pay3_apply (r : Fin 1024) : (k0_pay3 (F := Ideal)) (ix2 r 0) = 0 := by
  unfold k0_pay3
  refine (congrFun (shapeCast_self _ _) _).trans ?_
  exact Ideal.ofBits_zero_f32
theorem pay4_apply (r : Fin 1024) (d : Fin 64) : (k0_pay4 (F := Ideal)) (ix2 r d) = 0 := by
  unfold k0_pay4
  refine (congrFun (shapeCast_self _ _) _).trans ?_
  exact Ideal.ofBits_zero_f32

/-- A cast to the same shape changes nothing. -/
theorem pay5_eq (v36 : FVec Ideal S1024x1 .f32) : k0_pay5 (F := Ideal) v36 = v36 := by
  unfold k0_pay5
  exact shapeCast_self v36 _

/-! ### The two products of the body, read at an index

Both contract ONE axis of each operand. The scores contract the feature axis of the query rows with the feature
axis of the key rows; the weighted sum contracts the key axis of the weights with the row axis of the value rows. -/

theorem lhs_scores_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs_scores_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_scores_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs_scores_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

theorem lhs_wsum_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_wsum_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_wsum_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_wsum_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The scores' product into a zero accumulator, at `(r, c)`: the inner product over the 64 features of row `r` of the
    left operand with row `c` of the right one. -/
theorem scores_apply (x y : FVec Ideal S1024x64 .bf16) (r c : Fin 1024) :
    FloatOps.matmul dot_S1024x64_S1024x64_S1024x1024_1_1_0_0_n_n none x y (constant S1024x1024 .f32 0x00000000#32) (ix2 r c)
      = ∑ e : Fin 64, x (ix2 r e) * y (ix2 c e) := by
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 r c) ((contrEquiv1 dot_S1024x64_S1024x64_S1024x1024_1_1_0_0_n_n 64 rfl rfl).symm k) = ix2 r k := funext fun a => Fin.ext (by
    match a with
    | ⟨0, _⟩ => exact lhs_scores_0 _ _
    | ⟨1, _⟩ => exact (lhs_scores_1 _ _).trans hk)
  have er : dot_S1024x64_S1024x64_S1024x1024_1_1_0_0_n_n.rhsIdx (ix2 r c) ((contrEquiv1 dot_S1024x64_S1024x64_S1024x1024_1_1_0_0_n_n 64 rfl rfl).symm k) = ix2 c k := funext fun a => Fin.ext (by
    match a with
    | ⟨0, _⟩ => exact rhs_scores_0 _ _
    | ⟨1, _⟩ => exact (rhs_scores_1 _ _).trans hk)
  rw [el, er]

/-- The weighted sum's product into a zero accumulator, at `(r, d)`: the sum over the 1024 key rows `c` of the weight
    at `(r, c)` times the value row `c` at feature `d`. -/
theorem wsum_apply (w : FVec Ideal S1024x1024 .bf16) (y : FVec Ideal S1024x64 .bf16) (r : Fin 1024) (d : Fin 64) :
    FloatOps.matmul dot_S1024x1024_S1024x64_S1024x64_1_0_0_1_n_n none w y (constant S1024x64 .f32 0x00000000#32) (ix2 r d)
      = ∑ c : Fin 1024, w (ix2 r c) * y (ix2 c d) := by
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r d) ((contrEquiv1 dot_S1024x1024_S1024x64_S1024x64_1_0_0_1_n_n 1024 rfl rfl).symm k) = ix2 r k := funext fun a => Fin.ext (by
    match a with
    | ⟨0, _⟩ => exact lhs_wsum_0 _ _
    | ⟨1, _⟩ => exact (lhs_wsum_1 _ _).trans hk)
  have er : dot_S1024x1024_S1024x64_S1024x64_1_0_0_1_n_n.rhsIdx (ix2 r d) ((contrEquiv1 dot_S1024x1024_S1024x64_S1024x64_1_0_0_1_n_n 1024 rfl rfl).symm k) = ix2 k d := funext fun a => Fin.ext (by
    match a with
    | ⟨0, _⟩ => exact (rhs_wsum_0 _ _).trans hk
    | ⟨1, _⟩ => exact rhs_wsum_1 _ _)
  rw [el, er]

/-- The score of query row `r` against the block's key row `c`. -/
theorem pay7_apply (v3 : FVec Ideal S1024x64 .bf16) (v27 : Vec Ideal S1x1x1024x64 .bf16) (r c : Fin 1024) :
    k0_pay7 (F := Ideal) v3 v27 (ix2 r c) = ∑ e : Fin 64, v3 (ix2 r e) * v27 (ix4 0 0 c e) := by
  unfold k0_pay7
  refine (scores_apply v3 _ r c).trans ?_
  refine Finset.sum_congr rfl fun e _ => ?_
  rw [shapeCast_11ab_ab_apply]

/-- The largest score of row `r` in the block, started from -∞. -/
def lanemax (s : FVec Ideal S1024x1024 .f32) (r : Fin 1024) : EReal :=
  multiReduction (F := Ideal) .maximumf [1] S1024 s 0xFF800000#32 Facts₀.reduces_S1024x1024_S1024 (.inl rfl) rfl (ix1 r)

/-- The index a row's reduction reads at column `c` of row `r` is `(r, c)`. -/
theorem lift_row (r c : Fin 1024) : Facts₀.reduces_S1024x1024_S1024.lift (ix1 r) c = ix2 r c :=
  funext fun a => Fin.ext (by match a with | ⟨0, _⟩ => rfl | ⟨1, _⟩ => rfl)

/-- The number a row's maximum starts from is -∞. -/
theorem neg_inf_f32 : Ideal.ofBits .f32 0xFF800000#32 = ⊥ := by simp [Ideal.ofBits, Ideal.ieee]

/-- It is not +∞ when no score of the row is. -/
theorem lanemax_ne_top (s : FVec Ideal S1024x1024 .f32) (r : Fin 1024) (hs : ∀ c : Fin 1024, s (ix2 r c) ≠ ⊤) :
    lanemax s r ≠ ⊤ := by
  unfold lanemax
  refine (Ideal.multiReduction_maximumf_single s 0xFF800000#32 Facts₀.reduces_S1024x1024_S1024 (.inl rfl) rfl (ix1 r)).trans_ne ?_
  rw [← lt_top_iff_ne_top, Finset.fold_max_lt]
  refine ⟨?_, fun c _ => ?_⟩
  · show Ideal.ofBits .f32 0xFF800000#32 < ⊤
    rw [neg_inf_f32]; exact bot_lt_top
  · show s (Facts₀.reduces_S1024x1024_S1024.lift (ix1 r) c) < ⊤
    exact lt_top_iff_ne_top.2 ((congrArg s (lift_row r c)).trans_ne (hs c))

/-- The column cast of a row vector, met by a maximum with a column, at row `r`. -/
theorem maximumf_colcast_apply (a : FVec Ideal S1024x1 .f32) (m : FVec Ideal S1024 .f32) (r : Fin 1024) :
    maximumf a (shapeCast S1024x1 m shapeCasts_S1024_S1024x1) (ix2 r 0) = max (a (ix2 r 0)) (m (ix1 r)) := by
  refine (maximumf_apply _ _ _).trans ?_
  rw [shapeCast_a_a1_apply]

/-- The column cast of a row vector, added to a column, at row `r`. -/
theorem addf_colcast_apply (a : FVec Ideal S1024x1 .f32) (m : FVec Ideal S1024 .f32) (r : Fin 1024) :
    addf a (shapeCast S1024x1 m shapeCasts_S1024_S1024x1) (ix2 r 0) = a (ix2 r 0) + m (ix1 r) := by
  refine (addf_apply _ _ _).trans ?_
  rw [shapeCast_a_a1_apply]

/-- A row's maximum is the body's own reduction read at the row. -/
theorem lanemax_eq (s : FVec Ideal S1024x1024 .f32) (r : Fin 1024) :
    lanemax s r = multiReduction (F := Ideal) .maximumf [1] S1024 s 0xFF800000#32 Facts₀.reduces_S1024x1024_S1024 (.inl rfl) rfl (ix1 r) := rfl

/-- The new reference point of row `r`. -/
theorem pay8_apply (v3 : FVec Ideal S1024x64 .bf16) (v27 : Vec Ideal S1x1x1024x64 .bf16) (v33 : Vec Ideal S1024x1 .f32)
    (r : Fin 1024) :
    k0_pay8 (F := Ideal) v3 v27 v33 (ix2 r 0) = max (v33 (ix2 r 0)) (lanemax (k0_pay7 (F := Ideal) v3 v27) r) := by
  rw [lanemax_eq]
  unfold k0_pay8
  exact maximumf_colcast_apply v33 _ r

/-- The factor the old sums are rescaled by: exp(old reference point - new reference point). -/
theorem pay9_apply (v3 : FVec Ideal S1024x64 .bf16) (v27 : Vec Ideal S1x1x1024x64 .bf16) (v33 : Vec Ideal S1024x1 .f32)
    (r : Fin 1024) :
    k0_pay9 (F := Ideal) v3 v27 v33 (ix2 r 0)
      = Ideal.exp (v33 (ix2 r 0) - k0_pay8 (F := Ideal) v3 v27 v33 (ix2 r 0)) := by
  unfold k0_pay9
  generalize k0_pay8 (F := Ideal) v3 v27 v33 = m
  rfl

/-- The block's weights: exp(score - new reference point of the row). -/
theorem pay10_apply (v3 : FVec Ideal S1024x64 .bf16) (v27 : Vec Ideal S1x1x1024x64 .bf16) (v33 : Vec Ideal S1024x1 .f32)
    (r c : Fin 1024) :
    k0_pay10 (F := Ideal) v3 v27 v33 (ix2 r c)
      = Ideal.exp (k0_pay7 (F := Ideal) v3 v27 (ix2 r c) - k0_pay8 (F := Ideal) v3 v27 v33 (ix2 r 0)) := by
  unfold k0_pay10
  generalize k0_pay8 (F := Ideal) v3 v27 v33 = m
  generalize k0_pay7 (F := Ideal) v3 v27 = s
  show Ideal.exp (s (ix2 r c) - broadcastTo S1024x1024 m broadcasts_S1024x1_S1024x1024 (ix2 r c)) = _
  rw [broadcastTo_a1_ab_apply]

/-- A row's sum by the body's own reduction, started from zero, is the sum over the row's 1024 columns. -/
theorem lanesum_apply (s : FVec Ideal S1024x1024 .f32) (r : Fin 1024) :
    multiReduction (F := Ideal) .add [1] S1024 s 0x00000000#32 Facts₀.reduces_S1024x1024_S1024 (.inl rfl) rfl (ix1 r)
      = ∑ c : Fin 1024, s (ix2 r c) := by
  refine (Ideal.multiReduction_add_single s 0x00000000#32 Facts₀.reduces_S1024x1024_S1024 (.inl rfl) rfl (ix1 r)).trans ?_
  exact Finset.sum_congr rfl fun c _ => congrArg s (lift_row r c)

/-- The new sum of weights of row `r`. -/
theorem pay11_apply (v3 : FVec Ideal S1024x64 .bf16) (v27 : Vec Ideal S1x1x1024x64 .bf16) (v33 v42 : Vec Ideal S1024x1 .f32)
    (r : Fin 1024) :
    k0_pay11 (F := Ideal) v3 v27 v33 v42 (ix2 r 0)
      = Ideal.exp (v33 (ix2 r 0) - k0_pay8 (F := Ideal) v3 v27 v33 (ix2 r 0)) * v42 (ix2 r 0)
        + ∑ c : Fin 1024, Ideal.exp (k0_pay7 (F := Ideal) v3 v27 (ix2 r c) - k0_pay8 (F := Ideal) v3 v27 v33 (ix2 r 0)) := by
  refine Eq.trans ?_ (congrArg₂ (· + ·) (congrArg (· * v42 (ix2 r 0)) (pay9_apply v3 v27 v33 r))
    (Finset.sum_congr rfl fun c _ => pay10_apply v3 v27 v33 r c))
  unfold k0_pay11
  generalize k0_pay9 (F := Ideal) v3 v27 v33 = a
  generalize k0_pay10 (F := Ideal) v3 v27 v33 = w
  refine (congrFun (shapeCast_self _ _) _).trans ?_
  refine (addf_colcast_apply _ _ r).trans ?_
  exact congrArg (a (ix2 r 0) * v42 (ix2 r 0) + ·) (lanesum_apply w r)

/-- The new weighted sum of value rows, at row `r` and feature `d`. -/
theorem pay12_apply (v3 : FVec Ideal S1024x64 .bf16) (v27 v30 : Vec Ideal S1x1x1024x64 .bf16) (v33 : Vec Ideal S1024x1 .f32)
    (v50 : Vec Ideal S1024x64 .f32) (r : Fin 1024) (d : Fin 64) :
    k0_pay12 (F := Ideal) v3 v27 v30 v33 v50 (ix2 r d)
      = Ideal.exp (v33 (ix2 r 0) - k0_pay8 (F := Ideal) v3 v27 v33 (ix2 r 0)) * v50 (ix2 r d)
        + ∑ c : Fin 1024, Ideal.exp (k0_pay7 (F := Ideal) v3 v27 (ix2 r c) - k0_pay8 (F := Ideal) v3 v27 v33 (ix2 r 0))
            * v30 (ix4 0 0 c d) := by
  refine Eq.trans ?_ (congrArg₂ (· + ·) (congrArg (· * v50 (ix2 r d)) (pay9_apply v3 v27 v33 r))
    (Finset.sum_congr rfl fun c _ => congrArg (· * v30 (ix4 0 0 c d)) (pay10_apply v3 v27 v33 r c)))
  unfold k0_pay12
  generalize k0_pay9 (F := Ideal) v3 v27 v33 = a
  generalize k0_pay10 (F := Ideal) v3 v27 v33 = w
  refine (congrFun (shapeCast_self _ _) _).trans ?_
  refine (addf_apply _ _ _).trans ?_
  refine congrArg₂ (· + ·) ?_ ?_
  · refine (mulf_apply _ _ _).trans ?_
    rw [broadcastTo_a1_ab_apply]
  · refine (wsum_apply _ _ r d).trans ?_
    refine Finset.sum_congr rfl fun c _ => ?_
    rw [shapeCast_11ab_ab_apply]
    rfl

/-- The output block: the weighted sum over the sum of weights. -/
theorem pay6_apply (v17 : Vec Ideal S1024x64 .f32) (v18 : Vec Ideal S1024x1 .f32) (r : Fin 1024) (d : Fin 64) :
    k0_pay6 (F := Ideal) v17 v18 (ix4 0 0 r d) = Ideal.div (v17 (ix2 r d)) (v18 (ix2 r 0)) := by
  unfold k0_pay6
  refine (shapeCast_ab_11ab_apply _ _ 0 0 r d).trans ?_
  show Ideal.div (v17 (ix2 r d)) (broadcastTo S1024x64 v18 broadcasts_S1024x1_S1024x64 (ix2 r d)) = _
  rw [broadcastTo_a1_ab_apply]

end Cert.KernelIdeal.Pay

end
-- ==== Proof.OnlineSoftmax.lean ====
/-
  The mathematics of the streaming softmax, over the reals: a weighted average with exponential weights
  does not depend on the reference point the exponents are measured from, so the running maximum a
  blockwise pass carries (started from any finite number) gives the same quotient as the row's true maximum.
  The pass keeps, for a reference point m, the sums E * exp(-m) and N * exp(-m), where E is the sum of exp(x_t)
  and N the sum of exp(x_t) v_t over the keys seen so far; moving the reference point to m' multiplies both by
  exp(m - m'), and a new block adds its own terms exp(x_c - m'); at the end the common factor cancels.
-/
import Idealize.ShloMosaic.PureOps.Ideal

noncomputable section

namespace Cert.OnlineSoftmax

open Idealize.ShloMosaic

/-- The extended real of a finite sum of reals is the sum of the extended reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of a finite number and anything but +∞ is a finite number. -/
theorem max_coe_real (m : ℝ) (b : EReal) (hb : b ≠ ⊤) : ∃ m' : ℝ, max (m : EReal) b = (m' : EReal) := by
  induction b with
  | bot => exact ⟨m, max_eq_left bot_le⟩
  | coe r => exact ⟨max m r, (EReal.coe_strictMono.monotone.map_max (a := m) (b := r)).symm⟩
  | top => exact absurd rfl hb

/-- The weight of a score measured from the reference point m' splits off the factor exp(-m'). -/
theorem exp_sub_split (x m' : ℝ) : Real.exp (x - m') = Real.exp x * Real.exp (-m') := by
  rw [sub_eq_add_neg, Real.exp_add]

/-- Moving the reference point from m to m' multiplies a sum kept as S * exp(-m) by exp(m - m'),
    which turns it into S * exp(-m'). -/
theorem rescale (S m m' : ℝ) : Real.exp (m - m') * (S * Real.exp (-m)) = S * Real.exp (-m') := by
  rw [mul_left_comm, ← Real.exp_add]
  congr 2
  ring

/-- One block of the pass, for the sum of the weights: the old sum rescaled to the new reference point, plus the
    block's own weights. -/
theorem step_den {n : ℕ} (x : Fin n → ℝ) (m m' E : ℝ) :
    Ideal.exp ((m : EReal) - (m' : EReal)) * ((E * Real.exp (-m) : ℝ) : EReal)
        + ∑ c : Fin n, Ideal.exp ((x c : EReal) - (m' : EReal))
      = (((E + ∑ c : Fin n, Real.exp (x c)) * Real.exp (-m') : ℝ) : EReal) := by
  have h : ∀ c : Fin n, Ideal.exp ((x c : EReal) - (m' : EReal)) = ((Real.exp (x c) * Real.exp (-m') : ℝ) : EReal) := by
    intro c
    rw [← EReal.coe_sub, Ideal.exp_coe, exp_sub_split]
  rw [Finset.sum_congr rfl (fun c _ => h c), ← EReal.coe_sub, Ideal.exp_coe, ← EReal.coe_mul, ← coe_sum,
    ← EReal.coe_add, rescale, add_mul, Finset.sum_mul]

/-- The same block for the weighted sum of the values. -/
theorem step_num {n : ℕ} (x v : Fin n → ℝ) (m m' N : ℝ) :
    Ideal.exp ((m : EReal) - (m' : EReal)) * ((N * Real.exp (-m) : ℝ) : EReal)
        + ∑ c : Fin n, Ideal.exp ((x c : EReal) - (m' : EReal)) * (v c : EReal)
      = (((N + ∑ c : Fin n, Real.exp (x c) * v c) * Real.exp (-m') : ℝ) : EReal) := by
  have h : ∀ c : Fin n, Ideal.exp ((x c : EReal) - (m' : EReal)) * (v c : EReal)
      = ((Real.exp (x c) * v c * Real.exp (-m') : ℝ) : EReal) := by
    intro c
    rw [← EReal.coe_sub, Ideal.exp_coe, ← EReal.coe_mul, exp_sub_split, mul_right_comm]
  rw [Finset.sum_congr rfl (fun c _ => h c), ← EReal.coe_sub, Ideal.exp_coe, ← EReal.coe_mul, ← coe_sum,
    ← EReal.coe_add, rescale, add_mul, Finset.sum_mul]

/-- At the end the common factor exp(-m) cancels. -/
theorem quot (N E m : ℝ) (hE : 0 < E) :
    Ideal.div ((N * Real.exp (-m) : ℝ) : EReal) ((E * Real.exp (-m) : ℝ) : EReal) = ((N / E : ℝ) : EReal) := by
  have hexp : Real.exp (-m) ≠ 0 := (Real.exp_pos _).ne'
  have hne : E * Real.exp (-m) ≠ 0 := mul_ne_zero hE.ne' hexp
  rw [Ideal.div_coe hne, ← EReal.coe_mul]
  congr 1
  field_simp

/-- Four consecutive blocks of 1024 indices are the 4096, summed in the order a pass over the blocks adds them. -/
theorem sum_four_blocks (f : Fin 4096 → ℝ) :
    ∑ t : Fin 4096, f t
      = (((0 + ∑ c : Fin 1024, f ⟨0 + c.val, by omega⟩) + ∑ c : Fin 1024, f ⟨1024 + c.val, by omega⟩)
          + ∑ c : Fin 1024, f ⟨2048 + c.val, by omega⟩) + ∑ c : Fin 1024, f ⟨3072 + c.val, by omega⟩ := by
  -- g extends f by zero to all natural numbers, so that every sum becomes a sum over a range of naturals
  let g : ℕ → ℝ := fun k => if h : k < 4096 then f ⟨k, h⟩ else 0
  have hg : ∀ (k : ℕ) (h : k < 4096), f ⟨k, h⟩ = g k := fun k h => by simp only [g, dif_pos h]
  have hblock : ∀ (a : ℕ) (ha : a + 1024 ≤ 4096),
      ∑ c : Fin 1024, f ⟨a + c.val, by omega⟩ = ∑ k ∈ Finset.range 1024, g (a + k) := by
    intro a ha
    rw [← Fin.sum_univ_eq_sum_range (fun k => g (a + k)) 1024]
    exact Finset.sum_congr rfl (fun c _ => hg _ _)
  have hall : ∑ t : Fin 4096, f t = ∑ k ∈ Finset.range 4096, g k := by
    rw [← Fin.sum_univ_eq_sum_range g 4096]
    exact Finset.sum_congr rfl (fun t _ => hg _ _)
  -- the range of 4096 is cut three times at a multiple of 1024
  have s3 : ∑ k ∈ Finset.range 4096, g k
      = ∑ k ∈ Finset.range 3072, g k + ∑ k ∈ Finset.range 1024, g (3072 + k) := Finset.sum_range_add g 3072 1024
  have s2 : ∑ k ∈ Finset.range 3072, g k
      = ∑ k ∈ Finset.range 2048, g k + ∑ k ∈ Finset.range 1024, g (2048 + k) := Finset.sum_range_add g 2048 1024
  have s1 : ∑ k ∈ Finset.range 2048, g k
      = ∑ k ∈ Finset.range 1024, g k + ∑ k ∈ Finset.range 1024, g (1024 + k) := Finset.sum_range_add g 1024 1024
  have s0 : ∑ k ∈ Finset.range 1024, g k = 0 + ∑ k ∈ Finset.range 1024, g (0 + k) := by
    rw [zero_add]
    exact Finset.sum_congr rfl (fun k _ => by rw [zero_add])
  rw [hall, s3, s2, s1, s0, hblock 0 (by omega), hblock 1024 (by omega), hblock 2048 (by omega),
    hblock 3072 (by omega)]

end Cert.OnlineSoftmax

end
-- ==== Proof.Spec.lean ====
/-
  The attention map over the reals, as ONE formula with no running maximum in it: for head h and query row s, the
  scores x_t = (sum over e of q[h,s,e] k[h,t,e]) / 16 against every key row t, and the output
      (sum over t of exp(x_t) v[h,t,d]) / (sum over t of exp(x_t)).
  Subtracting any finite number from every score leaves this quotient unchanged, which is why a softmax computed
  against the row's maximum and one streamed block by block against a running reference point both equal it.
-/
import Idealize.ShloMosaic.PureOps.Ideal
import Idealize.ShloMosaic.Lib.ValueIdx

noncomputable section

namespace Cert.Attn

open Idealize.ShloMosaic Idealize.ShloMosaic.ValueIdx

/-- The shape of q, k, v and of the result: one batch, 16 heads, 4096 rows, 64 features. -/
abbrev SQ : Shape := ⟨4, ![1, 16, 4096, 64]⟩

/-- The scaled score of query row `s` against key row `t` in head `h`. -/
def score (q k : SQ.Idx → ℝ) (h : Fin 16) (s t : Fin 4096) : ℝ :=
  (∑ e : Fin 64, q (ix4 0 h s e) * k (ix4 0 h t e)) * (1 / 16)

/-- The unnormalised weighted sum of the value rows, -/
def num (q k v : SQ.Idx → ℝ) (h : Fin 16) (s : Fin 4096) (d : Fin 64) : ℝ :=
  ∑ t : Fin 4096, Real.exp (score q k h s t) * v (ix4 0 h t d)

/-- the sum of the weights, -/
def den (q k : SQ.Idx → ℝ) (h : Fin 16) (s : Fin 4096) : ℝ :=
  ∑ t : Fin 4096, Real.exp (score q k h s t)

/-- and their quotient: the attention output at (h, s, d). -/
def attn (q k v : SQ.Idx → ℝ) (h : Fin 16) (s : Fin 4096) (d : Fin 64) : ℝ :=
  num q k v h s d / den q k h s

/-- The weights are positive, so their sum is. -/
theorem den_pos (q k : SQ.Idx → ℝ) (h : Fin 16) (s : Fin 4096) : 0 < den q k h s :=
  Finset.sum_pos (fun _ _ => Real.exp_pos _) ⟨0, Finset.mem_univ _⟩

/-- The attention output of extended-real arrays whose entries are finite: the real formula at their real parts. -/
def G (q k v : SQ.Idx → EReal) : SQ.Idx → EReal := fun i =>
  ((attn (fun j => (q j).toReal) (fun j => (k j).toReal) (fun j => (v j).toReal)
      ⟨(i 1).val, (i 1).isLt⟩ ⟨(i 2).val, (i 2).isLt⟩ ⟨(i 3).val, (i 3).isLt⟩ : ℝ) : EReal)

theorem G_ix4 (q k v : SQ.Idx → EReal) (b : Fin 1) (h : Fin 16) (s : Fin 4096) (d : Fin 64) :
    G q k v (ix4 b h s d)
      = ((attn (fun j => (q j).toReal) (fun j => (k j).toReal) (fun j => (v j).toReal) h s d : ℝ) : EReal) := rfl

/-! ## The same formula from one grid point's blocks

A grid point sees 1024 query rows of one head and that head's 4096 key and value rows, each as an array with two
leading axes of extent one. -/

/-- A block of 1024 query (or output) rows of one head. -/
abbrev SB : Shape := ⟨4, ![1, 1, 1024, 64]⟩
/-- One head's 4096 key (or value) rows. -/
abbrev SH : Shape := ⟨4, ![1, 1, 4096, 64]⟩

/-- The scaled score of the block's query row `r` against the head's key row `t`. -/
def rowScore (qb : SB.Idx → ℝ) (kh : SH.Idx → ℝ) (r : Fin 1024) (t : Fin 4096) : ℝ :=
  (∑ e : Fin 64, qb (ix4 0 0 r e) * kh (ix4 0 0 t e)) * (1 / 16)

/-- The sum of the weights of row `r`, -/
def rowDen (qb : SB.Idx → ℝ) (kh : SH.Idx → ℝ) (r : Fin 1024) : ℝ :=
  ∑ t : Fin 4096, Real.exp (rowScore qb kh r t)

/-- its weighted sum of value rows at feature `d`, -/
def rowNum (qb : SB.Idx → ℝ) (kh vh : SH.Idx → ℝ) (r : Fin 1024) (d : Fin 64) : ℝ :=
  ∑ t : Fin 4096, Real.exp (rowScore qb kh r t) * vh (ix4 0 0 t d)

/-- and the attention output of row `r` at feature `d`. -/
def rowAttn (qb : SB.Idx → ℝ) (kh vh : SH.Idx → ℝ) (r : Fin 1024) (d : Fin 64) : ℝ :=
  rowNum qb kh vh r d / rowDen qb kh r

theorem rowDen_pos (qb : SB.Idx → ℝ) (kh : SH.Idx → ℝ) (r : Fin 1024) : 0 < rowDen qb kh r :=
  Finset.sum_pos (fun _ _ => Real.exp_pos _) ⟨0, Finset.mem_univ _⟩

end Cert.Attn

end
-- ==== Proof.Rows.lean ====
/-
  One grid point, one query row at a time. With finite inputs every score is a finite number, so the reference
  point a row carries stays finite through the four passes, and after each pass the row's sum of weights is
  E * exp(-m) and its weighted sum of value rows N * exp(-m), where m is the current reference point and E, N the
  sums of exp(score) and exp(score) * value over the keys of the passes done. After the fourth pass E and N run
  over all 4096 keys and the common factor cancels in the quotient: the output block holds the attention formula
  of the blocks, whatever the reference point started from.
-/
import proofs.«427505_j39676907882138_3_alg».proof.Proof.Pieces
import proofs.«427505_j39676907882138_3_alg».proof.Proof.Payloads
import proofs.«427505_j39676907882138_3_alg».proof.Proof.OnlineSoftmax
import proofs.«427505_j39676907882138_3_alg».proof.Proof.Spec

set_option maxRecDepth 16384

noncomputable section

namespace Cert.KernelIdeal.Rows

open Cert.KernelIdeal Cert.KernelIdeal.Gen Cert.KernelIdeal.Pieces Cert.KernelIdeal.Pay Cert.OnlineSoftmax
open Idealize.ShloMosaic Idealize.ShloMosaic.ValueIdx

/-! ## Keys by pass -/

/-- The key row that pass `k` meets in its column `c`: row 1024 k + c of the head. -/
def key (k : Fin k0_t1_loop.trips) (c : Fin 1024) : Fin 4096 :=
  ⟨1024 * k.val + c.val, by have := Nat.lt_of_lt_of_le k.isLt k0_t1_abs.2.1; omega⟩

/-- The rows a pass reads are the head's rows at the pass's keys. -/
theorem rows_apply {F : FTy → Type} [FloatOps F] (X : Vec F S1x1x4096x64 .bf16) (k : Fin k0_t1_loop.trips)
    (c : Fin 1024) (e : Fin 64) : rows X k (ix4 0 0 c e) = X (ix4 0 0 (key k c) e) := by
  unfold rows View.ld
  have ho := k0_off1_eq k
  refine congrArg X (funext fun a => Fin.ext ?_)
  match a with
  | ⟨0, _⟩ => simp [key]; rw [ho]; rfl
  | ⟨1, _⟩ => simp [key]; rw [ho]; rfl
  | ⟨2, _⟩ => simp [key]; rw [ho]; rfl
  | ⟨3, _⟩ => simp [key]; rw [ho]; rfl

/-- A finite extended real is its real part. -/
theorem coe_toReal {x : EReal} (h : ∃ a : ℝ, x = (a : EReal)) : x = ((x.toReal : ℝ) : EReal) := by
  obtain ⟨a, rfl⟩ := h; rw [EReal.toReal_coe]

section

variable (x0 : Vec Ideal S1x1x1024x64 .bf16) (x1 x2 : Vec Ideal S1x1x4096x64 .bf16)
  (h0 : ∀ j, ∃ a : ℝ, x0 j = (a : EReal)) (h1 : ∀ j, ∃ a : ℝ, x1 j = (a : EReal)) (h2 : ∀ j, ∃ a : ℝ, x2 j = (a : EReal))

/-! ## The scores are finite -/

/-- The score of query row `r` against key row `t` as the body forms it: the query row is scaled by 1/16 first. -/
def sc (r : Fin 1024) (t : Fin 4096) : ℝ :=
  ∑ e : Fin 64, (EReal.toReal (x0 (ix4 0 0 r e)) * (1 / 16)) * EReal.toReal (x1 (ix4 0 0 t e))

/-- Scaling the query row first or the inner product afterwards is the same number. -/
theorem sc_eq (r : Fin 1024) (t : Fin 4096) :
    sc x0 x1 r t = Cert.Attn.rowScore (fun j => (x0 j).toReal) (fun j => (x1 j).toReal) r t := by
  unfold sc Cert.Attn.rowScore
  rw [Finset.sum_mul]
  exact Finset.sum_congr rfl fun e _ => by ring

include h0 h1 in
/-- The body's score of row `r` against the key in column `c` of pass `k` is that finite number. -/
theorem score_real (r : Fin 1024) (k : Fin k0_t1_loop.trips) (c : Fin 1024) :
    k0_pay7 (F := Ideal) (k0_pay1 (F := Ideal) x0) (rows x1 k) (ix2 r c) = ((sc x0 x1 r (key k c) : ℝ) : EReal) := by
  rw [pay7_apply]
  unfold sc
  rw [coe_sum]
  refine Finset.sum_congr rfl fun e _ => ?_
  rw [pay1_apply, sixteenth_bf16, rows_apply]
  obtain ⟨a, ha⟩ := h0 (ix4 0 0 r e)
  obtain ⟨b, hb⟩ := h1 (ix4 0 0 (key k c) e)
  rw [ha, hb, EReal.toReal_coe, EReal.toReal_coe, EReal.coe_mul, EReal.coe_mul]

/-! ## One row through one pass -/

/-- What row `r` of the three arrays holds when the reference point is `m` and the sums over the keys met so far
    are `E` (of the weights exp(score)) and `N d` (of the weights times the value rows' feature `d`). -/
def RowInv (s : State Ideal) (r : Fin 1024) (m E : ℝ) (N : Fin 64 → ℝ) : Prop :=
  s.1 (ix2 r 0) = (m : EReal) ∧ s.2.1 (ix2 r 0) = ((E * Real.exp (-m) : ℝ) : EReal)
    ∧ ∀ d : Fin 64, s.2.2 (ix2 r d) = ((N d * Real.exp (-m) : ℝ) : EReal)

include h0 h1 h2 in
/-- A pass keeps that form: the reference point moves to another finite number, and the sums receive the pass's keys. -/
theorem pass_inv (r : Fin 1024) (k : Fin k0_t1_loop.trips) (s : State Ideal) (m E : ℝ) (N : Fin 64 → ℝ)
    (hs : RowInv s r m E N) :
    ∃ m' : ℝ, RowInv (pass (k0_pay1 (F := Ideal) x0) x1 x2 k s) r m'
      (E + ∑ c : Fin 1024, Real.exp (sc x0 x1 r (key k c)))
      (fun d => N d + ∑ c : Fin 1024, Real.exp (sc x0 x1 r (key k c)) * EReal.toReal (x2 (ix4 0 0 (key k c) d))) := by
  obtain ⟨hm, hl, ha⟩ := hs
  have hne : lanemax (k0_pay7 (F := Ideal) (k0_pay1 (F := Ideal) x0) (rows x1 k)) r ≠ ⊤ :=
    lanemax_ne_top _ r fun c => by rw [score_real x0 x1 h0 h1]; exact EReal.coe_ne_top _
  obtain ⟨m', hm'⟩ := max_coe_real m _ hne
  have h8 : k0_pay8 (F := Ideal) (k0_pay1 (F := Ideal) x0) (rows x1 k) s.1 (ix2 r 0) = (m' : EReal) := by
    rw [pay8_apply, hm, hm']
  refine ⟨m', ?_, ?_, fun d => ?_⟩
  · show k0_pay5 (F := Ideal) (k0_pay8 (F := Ideal) (k0_pay1 (F := Ideal) x0) (rows x1 k) s.1) (ix2 r 0) = _
    rw [pay5_eq]; exact h8
  · show k0_pay11 (F := Ideal) (k0_pay1 (F := Ideal) x0) (rows x1 k) s.1 s.2.1 (ix2 r 0) = _
    rw [pay11_apply, h8, hm, hl]
    have hsum : (∑ c : Fin 1024, Ideal.exp (k0_pay7 (F := Ideal) (k0_pay1 (F := Ideal) x0) (rows x1 k) (ix2 r c) - (m' : EReal)))
        = ∑ c : Fin 1024, Ideal.exp (((sc x0 x1 r (key k c) : ℝ) : EReal) - (m' : EReal)) :=
      Finset.sum_congr rfl fun c _ => by rw [score_real x0 x1 h0 h1]
    rw [hsum]
    exact step_den (fun c => sc x0 x1 r (key k c)) m m' E
  · show k0_pay12 (F := Ideal) (k0_pay1 (F := Ideal) x0) (rows x1 k) (rows x2 k) s.1 s.2.2 (ix2 r d) = _
    rw [pay12_apply, h8, hm, ha d]
    have hsum : (∑ c : Fin 1024, Ideal.exp (k0_pay7 (F := Ideal) (k0_pay1 (F := Ideal) x0) (rows x1 k) (ix2 r c) - (m' : EReal))
          * rows x2 k (ix4 0 0 c d))
        = ∑ c : Fin 1024, Ideal.exp (((sc x0 x1 r (key k c) : ℝ) : EReal) - (m' : EReal))
            * ((EReal.toReal (x2 (ix4 0 0 (key k c) d)) : ℝ) : EReal) :=
      Finset.sum_congr rfl fun c _ => by
        rw [score_real x0 x1 h0 h1, rows_apply, ← coe_toReal (h2 _)]
    rw [hsum]
    exact step_num (fun c => sc x0 x1 r (key k c)) (fun c => EReal.toReal (x2 (ix4 0 0 (key k c) d))) m m' (N d)

include h0 h1 h2 in
/-- The same, between the arrays after `k` and after `k + 1` passes. -/
theorem after_step (r : Fin 1024) (k : Fin k0_t1_loop.trips) (m E : ℝ) (N : Fin 64 → ℝ)
    (hs : RowInv (after (k0_pay1 (F := Ideal) x0) x1 x2 k.val) r m E N) :
    ∃ m' : ℝ, RowInv (after (k0_pay1 (F := Ideal) x0) x1 x2 (k.val + 1)) r m'
      (E + ∑ c : Fin 1024, Real.exp (sc x0 x1 r (key k c)))
      (fun d => N d + ∑ c : Fin 1024, Real.exp (sc x0 x1 r (key k c)) * EReal.toReal (x2 (ix4 0 0 (key k c) d))) := by
  rw [after_succ]
  exact pass_inv x0 x1 x2 h0 h1 h2 r k _ m E N hs

/-- Before the first pass: a finite reference point, and empty sums. -/
theorem after_zero (r : Fin 1024) :
    ∃ m : ℝ, RowInv (after (k0_pay1 (F := Ideal) x0) x1 x2 0) r m 0 (fun _ => 0) := by
  obtain ⟨m, hm⟩ := neg_init_real
  refine ⟨m, ?_, ?_, fun d => ?_⟩
  · show (k0_pay2 (F := Ideal)) (ix2 r 0) = _
    rw [pay2_apply, hm]
  · show (k0_pay3 (F := Ideal)) (ix2 r 0) = _
    rw [pay3_apply, zero_mul, EReal.coe_zero]
  · show (k0_pay4 (F := Ideal)) (ix2 r d) = _
    rw [pay4_apply, zero_mul, EReal.coe_zero]

/-! ## After the four passes -/

theorem trips_eq : k0_t1_loop.trips = 4 := by decide

include h0 h1 h2 in
/-- Row `r`, feature `d` of the quotient of the arrays after the fourth pass is the attention formula of the blocks:
    four passes from the empty sums, the common factor cancelled, and the four runs of 1024 keys put back together. -/
theorem quotient_row (r : Fin 1024) (d : Fin 64) :
    k0_pay6 (F := Ideal) (after (k0_pay1 (F := Ideal) x0) x1 x2 k0_t1_loop.trips).2.2 (after (k0_pay1 (F := Ideal) x0) x1 x2 k0_t1_loop.trips).2.1 (ix4 0 0 r d)
      = ((Cert.Attn.rowAttn (fun j => (x0 j).toReal) (fun j => (x1 j).toReal) (fun j => (x2 j).toReal) r d : ℝ) : EReal) := by
  rw [pay6_apply, trips_eq]
  obtain ⟨m0, I0⟩ := after_zero x0 x1 x2 r
  obtain ⟨m1, I1⟩ := after_step x0 x1 x2 h0 h1 h2 r ⟨0, by decide⟩ _ _ _ I0
  obtain ⟨m2, I2⟩ := after_step x0 x1 x2 h0 h1 h2 r ⟨1, by decide⟩ _ _ _ I1
  obtain ⟨m3, I3⟩ := after_step x0 x1 x2 h0 h1 h2 r ⟨2, by decide⟩ _ _ _ I2
  obtain ⟨m4, -, hl, ha⟩ := after_step x0 x1 x2 h0 h1 h2 r ⟨3, by decide⟩ _ _ _ I3
  have hl' : (after (k0_pay1 (F := Ideal) x0) x1 x2 4).2.1 (ix2 r 0) = _ := hl
  have ha' : (after (k0_pay1 (F := Ideal) x0) x1 x2 4).2.2 (ix2 r d) = _ := ha d
  rw [ha', hl']
  have hB : ∀ k : Fin k0_t1_loop.trips, 0 < ∑ c : Fin 1024, Real.exp (sc x0 x1 r (key k c)) := fun k =>
    Finset.sum_pos (fun _ _ => Real.exp_pos _) ⟨0, Finset.mem_univ _⟩
  have hE : 0 < (0 : ℝ) + (∑ c : Fin 1024, Real.exp (sc x0 x1 r (key ⟨0, by decide⟩ c)))
      + (∑ c : Fin 1024, Real.exp (sc x0 x1 r (key ⟨1, by decide⟩ c)))
      + (∑ c : Fin 1024, Real.exp (sc x0 x1 r (key ⟨2, by decide⟩ c)))
      + (∑ c : Fin 1024, Real.exp (sc x0 x1 r (key ⟨3, by decide⟩ c))) := by
    have := hB ⟨0, by decide⟩; have := hB ⟨1, by decide⟩; have := hB ⟨2, by decide⟩; have := hB ⟨3, by decide⟩
    linarith
  rw [quot _ _ _ hE]
  refine congrArg (fun z : ℝ => (z : EReal)) ?_
  have k0 : ∀ c : Fin 1024, key ⟨0, by decide⟩ c = ⟨0 + c.val, by omega⟩ := fun c => Fin.ext (by simp [key])
  have k1 : ∀ c : Fin 1024, key ⟨1, by decide⟩ c = ⟨1024 + c.val, by omega⟩ := fun c => Fin.ext (by simp [key])
  have k2 : ∀ c : Fin 1024, key ⟨2, by decide⟩ c = ⟨2048 + c.val, by omega⟩ := fun c => Fin.ext (by simp [key])
  have k3 : ∀ c : Fin 1024, key ⟨3, by decide⟩ c = ⟨3072 + c.val, by omega⟩ := fun c => Fin.ext (by simp [key])
  unfold Cert.Attn.rowAttn Cert.Attn.rowNum Cert.Attn.rowDen
  rw [sum_four_blocks (fun t => Real.exp (Cert.Attn.rowScore (fun j => (x0 j).toReal) (fun j => (x1 j).toReal) r t)
        * (fun j => (x2 j).toReal) (ix4 0 0 t d)),
    sum_four_blocks (fun t => Real.exp (Cert.Attn.rowScore (fun j => (x0 j).toReal) (fun j => (x1 j).toReal) r t))]
  simp only [sc_eq, k0, k1, k2, k3]

end

/-- What the body leaves in the output block of ANY staging buffers, from input blocks whose entries are finite:
    row `r`, feature `d` holds the attention formula of the blocks' real parts. -/
theorem block_value (c : Dev nD) (i : grid0.Coords) (arg2 : Memref sig .tc .vmem S1x1x1024x64 .bf16) (harg2 : arg2.IsWhole) (arg3 : Memref sig .tc .vmem S1x1x4096x64 .bf16) (harg3 : arg3.IsWhole) (arg4 : Memref sig .tc .vmem S1x1x4096x64 .bf16) (harg4 : arg4.IsWhole) (arg5 : Memref sig .tc .vmem S1x1x1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole)
    (x0 : Vec Ideal S1x1x1024x64 .bf16) (x1 x2 : Vec Ideal S1x1x4096x64 .bf16)
    (h0 : ∀ j, ∃ a : ℝ, x0 j = (a : EReal)) (h1 : ∀ j, ∃ a : ℝ, x1 j = (a : EReal)) (h2 : ∀ j, ∃ a : ℝ, x2 j = (a : EReal))
    (r : Fin 1024) (d : Fin 64) :
    out0_A_3 (F := Ideal) c i arg2 harg2 arg3 harg3 arg4 harg4 arg5 harg5 arg6 harg6 arg7 harg7 arg8 harg8 x0 x1 x2 (ix4 0 0 r d)
      = ((Cert.Attn.rowAttn (fun j => (x0 j).toReal) (fun j => (x1 j).toReal) (fun j => (x2 j).toReal) r d : ℝ) : EReal) := by
  rw [out_block]
  exact quotient_row x0 x1 x2 h0 h1 h2 r d

end Cert.KernelIdeal.Rows

end
-- ==== Proof.Blocks.lean ====
/-
  From the 64 output blocks to the output array. Grid point (h, i) reads query rows 1024 i … 1024 i + 1023 of head
  h and all of head h's key and value rows (the conversion to the narrower float format on the way is the identity
  on the extended reals), and writes rows 1024 i … 1024 i + 1023 of head h of the result. The blocks written tile
  the result, and each holds the attention formula of the whole arrays restricted to its rows: so the result array
  is that formula everywhere.
-/
import proofs.«427505_j39676907882138_3_alg».proof.Proof.Gen.KernelIdeal.Value
import proofs.«427505_j39676907882138_3_alg».proof.Proof.Rows

set_option maxRecDepth 16384

noncomputable section

namespace Cert.KernelIdeal.Blocks

open Cert.KernelIdeal Cert.KernelIdeal.Gen Cert.KernelIdeal.Value
open Idealize.ShloMosaic Idealize.ShloMosaic.TcCoe Idealize.ShloMosaic.ValueIdx Idealize.SL.Sem

variable (m : (ℓ : Loc nD τ sig) → Buf (Elt Ideal) ℓ)

/-- The attention formula of one grid point's blocks is the formula of the whole arrays at the head and the row the
    blocks are cut from: every sum runs over the same keys and features, and each block entry is an array entry. -/
theorem rowAttn_eq_attn (qb : Cert.Attn.SB.Idx → ℝ) (kh vh : Cert.Attn.SH.Idx → ℝ) (q k v : Cert.Attn.SQ.Idx → ℝ)
    (h : Fin 16) (s : Fin 4096) (r : Fin 1024) (d d' : Fin 64)
    (hq : ∀ e, qb (ix4 0 0 r e) = q (ix4 0 h s e))
    (hk : ∀ t e, kh (ix4 0 0 t e) = k (ix4 0 h t e))
    (hv : ∀ t, vh (ix4 0 0 t d) = v (ix4 0 h t d')) :
    Cert.Attn.rowAttn qb kh vh r d = Cert.Attn.attn q k v h s d' := by
  have hs : ∀ t, Cert.Attn.rowScore qb kh r t = Cert.Attn.score q k h s t := fun t => by
    unfold Cert.Attn.rowScore Cert.Attn.score
    exact congrArg (· * (1 / 16)) (Finset.sum_congr rfl fun e _ => by rw [hq e, hk t e])
  unfold Cert.Attn.rowAttn Cert.Attn.attn Cert.Attn.rowNum Cert.Attn.num Cert.Attn.rowDen Cert.Attn.den
  simp only [hs, hv]

/-- The kernel's four index maps, decided over the 64 grid points: the query block moves with the output block; the
    key and value blocks stay at the output's head and at block 0 on every other axis; the output's block index is
    (0, head, row tile, 0) with the head below 16 and the row tile below 4. -/
theorem idx_facts : ∀ t : Fin cfg0.N,
    (win0_0.index t (0 : Fin 4) = 0 ∧ win0_0.index t (1 : Fin 4) = win0_3.index t (1 : Fin 4)
      ∧ win0_0.index t (2 : Fin 4) = win0_3.index t (2 : Fin 4) ∧ win0_0.index t (3 : Fin 4) = 0)
    ∧ (win0_1.index t (0 : Fin 4) = 0 ∧ win0_1.index t (1 : Fin 4) = win0_3.index t (1 : Fin 4)
      ∧ win0_1.index t (2 : Fin 4) = 0 ∧ win0_1.index t (3 : Fin 4) = 0)
    ∧ (win0_2.index t (0 : Fin 4) = 0 ∧ win0_2.index t (1 : Fin 4) = win0_3.index t (1 : Fin 4)
      ∧ win0_2.index t (2 : Fin 4) = 0 ∧ win0_2.index t (3 : Fin 4) = 0)
    ∧ (win0_3.index t (0 : Fin 4) = 0 ∧ win0_3.index t (1 : Fin 4) < 16
      ∧ win0_3.index t (2 : Fin 4) < 4 ∧ win0_3.index t (3 : Fin 4) = 0) :=
  (by decide +kernel : ∀ t : Fin grid0.N, _)

/-- Every (head, row tile) pair is some grid point's output block. -/
theorem idx_onto : ∀ (h : Fin 16) (qi : Fin 4), ∃ t : Fin cfg0.N,
    win0_3.index t (1 : Fin 4) = h.val ∧ win0_3.index t (2 : Fin 4) = qi.val :=
  (by decide +kernel : ∀ (h : Fin 16) (qi : Fin 4), ∃ t : Fin grid0.N,
    win0_3.index t (1 : Fin 4) = h.val ∧ win0_3.index t (2 : Fin 4) = qi.val)

/-- The query array the kernel reads is the first argument: the conversion to the narrower float format before the
    kernel runs is the identity on the extended reals. -/
theorem V_q (c : Dev nD) :
    (V m c main_v0 : S1x16x4096x64.Idx → EReal) = m ((c : Thread nD τ).loc main_arg0) := by
  dsimp only [Gen.V, Gen.hostOps0]; after_results; rfl

/-- Likewise the key array is the second argument, -/
theorem V_k (c : Dev nD) :
    (V m c main_v1 : S1x16x4096x64.Idx → EReal) = m ((c : Thread nD τ).loc main_arg1) := by
  dsimp only [Gen.V, Gen.hostOps0]; after_results; rfl

/-- and the value array the third. -/
theorem V_v (c : Dev nD) :
    (V m c main_v2 : S1x16x4096x64.Idx → EReal) = m ((c : Thread nD τ).loc main_arg2) := by
  dsimp only [Gen.V, Gen.hostOps0]; after_results; rfl

/-- An entry of the query block at grid point `t` is the argument's entry at, on each axis, the block index times
    the block size plus the coordinate inside the block. -/
theorem qblk_apply (c : Dev nD) (t : Fin cfg0.N) (y : S1x1x1024x64.Idx) (k : S1x16x4096x64.Idx)
    (hk0 : (k 0).val = win0_0.index t (0 : Fin 4) * 1 + (y 0).val)
    (hk1 : (k 1).val = win0_0.index t (1 : Fin 4) * 1 + (y 1).val)
    (hk2 : (k 2).val = win0_0.index t (2 : Fin 4) * 1024 + (y 2).val)
    (hk3 : (k 3).val = win0_0.index t (3 : Fin 4) * 64 + (y 3).val) :
    (iblk m c 0 t : Vec Ideal S1x1x1024x64 .bf16) y
      = (m ((c : Thread nD τ).loc main_arg0) : S1x16x4096x64.Idx → EReal) k := by
  show (V m c main_v0 : S1x16x4096x64.Idx → EReal) (((cfg0.win 0).blk t).view.emb y) = _
  refine (congrFun (V_q m c) _).trans (congrArg _ ?_)
  funext a; apply Fin.ext
  match a with
  | ⟨0, _⟩ => show win0_0.index t (0 : Fin 4) * 1 + 1 * (y 0).val = (k 0).val; omega
  | ⟨1, _⟩ => show win0_0.index t (1 : Fin 4) * 1 + 1 * (y 1).val = (k 1).val; omega
  | ⟨2, _⟩ => show win0_0.index t (2 : Fin 4) * 1024 + 1 * (y 2).val = (k 2).val; omega
  | ⟨3, _⟩ => show win0_0.index t (3 : Fin 4) * 64 + 1 * (y 3).val = (k 3).val; omega

/-- So its entries are finite when the argument's are. -/
theorem qblk_finite (c : Dev nD) (t : Fin cfg0.N)
    (h : ∀ j : S1x16x4096x64.Idx, ∃ a : ℝ, (m ((c : Thread nD τ).loc main_arg0) : S1x16x4096x64.Idx → EReal) j = (a : EReal))
    (y : S1x1x1024x64.Idx) : ∃ a : ℝ, (iblk m c 0 t : Vec Ideal S1x1x1024x64 .bf16) y = (a : EReal) :=
  (h (((cfg0.win 0).blk t).view.emb y)).imp fun a ha => (congrFun (V_q m c) _).trans ha

/-- An entry of the key block at grid point `t` is the argument's entry at, on each axis, the block index times
    the block size plus the coordinate inside the block. -/
theorem kblk_apply (c : Dev nD) (t : Fin cfg0.N) (y : S1x1x4096x64.Idx) (k : S1x16x4096x64.Idx)
    (hk0 : (k 0).val = win0_1.index t (0 : Fin 4) * 1 + (y 0).val)
    (hk1 : (k 1).val = win0_1.index t (1 : Fin 4) * 1 + (y 1).val)
    (hk2 : (k 2).val = win0_1.index t (2 : Fin 4) * 4096 + (y 2).val)
    (hk3 : (k 3).val = win0_1.index t (3 : Fin 4) * 64 + (y 3).val) :
    (iblk m c 1 t : Vec Ideal S1x1x4096x64 .bf16) y
      = (m ((c : Thread nD τ).loc main_arg1) : S1x16x4096x64.Idx → EReal) k := by
  show (V m c main_v1 : S1x16x4096x64.Idx → EReal) (((cfg0.win 1).blk t).view.emb y) = _
  refine (congrFun (V_k m c) _).trans (congrArg _ ?_)
  funext a; apply Fin.ext
  match a with
  | ⟨0, _⟩ => show win0_1.index t (0 : Fin 4) * 1 + 1 * (y 0).val = (k 0).val; omega
  | ⟨1, _⟩ => show win0_1.index t (1 : Fin 4) * 1 + 1 * (y 1).val = (k 1).val; omega
  | ⟨2, _⟩ => show win0_1.index t (2 : Fin 4) * 4096 + 1 * (y 2).val = (k 2).val; omega
  | ⟨3, _⟩ => show win0_1.index t (3 : Fin 4) * 64 + 1 * (y 3).val = (k 3).val; omega

/-- So its entries are finite when the argument's are. -/
theorem kblk_finite (c : Dev nD) (t : Fin cfg0.N)
    (h : ∀ j : S1x16x4096x64.Idx, ∃ a : ℝ, (m ((c : Thread nD τ).loc main_arg1) : S1x16x4096x64.Idx → EReal) j = (a : EReal))
    (y : S1x1x4096x64.Idx) : ∃ a : ℝ, (iblk m c 1 t : Vec Ideal S1x1x4096x64 .bf16) y = (a : EReal) :=
  (h (((cfg0.win 1).blk t).view.emb y)).imp fun a ha => (congrFun (V_k m c) _).trans ha

/-- An entry of the value block at grid point `t` is the argument's entry at, on each axis, the block index times
    the block size plus the coordinate inside the block. -/
theorem vblk_apply (c : Dev nD) (t : Fin cfg0.N) (y : S1x1x4096x64.Idx) (k : S1x16x4096x64.Idx)
    (hk0 : (k 0).val = win0_2.index t (0 : Fin 4) * 1 + (y 0).val)
    (hk1 : (k 1).val = win0_2.index t (1 : Fin 4) * 1 + (y 1).val)
    (hk2 : (k 2).val = win0_2.index t (2 : Fin 4) * 4096 + (y 2).val)
    (hk3 : (k 3).val = win0_2.index t (3 : Fin 4) * 64 + (y 3).val) :
    (iblk m c 2 t : Vec Ideal S1x1x4096x64 .bf16) y
      = (m ((c : Thread nD τ).loc main_arg2) : S1x16x4096x64.Idx → EReal) k := by
  show (V m c main_v2 : S1x16x4096x64.Idx → EReal) (((cfg0.win 2).blk t).view.emb y) = _
  refine (congrFun (V_v m c) _).trans (congrArg _ ?_)
  funext a; apply Fin.ext
  match a with
  | ⟨0, _⟩ => show win0_2.index t (0 : Fin 4) * 1 + 1 * (y 0).val = (k 0).val; omega
  | ⟨1, _⟩ => show win0_2.index t (1 : Fin 4) * 1 + 1 * (y 1).val = (k 1).val; omega
  | ⟨2, _⟩ => show win0_2.index t (2 : Fin 4) * 4096 + 1 * (y 2).val = (k 2).val; omega
  | ⟨3, _⟩ => show win0_2.index t (3 : Fin 4) * 64 + 1 * (y 3).val = (k 3).val; omega

/-- So its entries are finite when the argument's are. -/
theorem vblk_finite (c : Dev nD) (t : Fin cfg0.N)
    (h : ∀ j : S1x16x4096x64.Idx, ∃ a : ℝ, (m ((c : Thread nD τ).loc main_arg2) : S1x16x4096x64.Idx → EReal) j = (a : EReal))
    (y : S1x1x4096x64.Idx) : ∃ a : ℝ, (iblk m c 2 t : Vec Ideal S1x1x4096x64 .bf16) y = (a : EReal) :=
  (h (((cfg0.win 2).blk t).view.emb y)).imp fun a ha => (congrFun (V_v m c) _).trans ha

/-- Row `r`, feature `d` of the output block at grid point `t` sits in the result array at the point's head and at
    row 1024 times the row tile plus `r`. -/
theorem oblk_emb (t : Fin cfg0.N) (r : Fin 1024) (d : Fin 64) (H : Fin 16) (S : Fin 4096)
    (hH : H.val = win0_3.index t (1 : Fin 4)) (hS : S.val = win0_3.index t (2 : Fin 4) * 1024 + r.val) :
    ((cfg0.win 3).blk t).view.emb (ix4 0 0 r d : S1x1x1024x64.Idx) = (ix4 0 H S d : S1x16x4096x64.Idx) := by
  obtain ⟨-, -, -, d0, d1, d2, d3⟩ := idx_facts t
  funext a; apply Fin.ext
  match a with
  | ⟨0, _⟩ => show win0_3.index t (0 : Fin 4) * 1 + 1 * 0 = 0; omega
  | ⟨1, _⟩ => show win0_3.index t (1 : Fin 4) * 1 + 1 * 0 = H.val; omega
  | ⟨2, _⟩ => show win0_3.index t (2 : Fin 4) * 1024 + 1 * r.val = S.val; omega
  | ⟨3, _⟩ => show win0_3.index t (3 : Fin 4) * 64 + 1 * d.val = d.val; omega

/-- What grid point `t` leaves in row `r`, feature `d` of its output block is the attention formula of the whole
    arrays at the entry of the result array that the block's entry is written to. -/
theorem point_value (c : Dev nD) (t : Fin cfg0.N)
    (h0 : ∀ j : S1x16x4096x64.Idx, ∃ a : ℝ, (m ((c : Thread nD τ).loc main_arg0) : S1x16x4096x64.Idx → EReal) j = (a : EReal))
    (h1 : ∀ j : S1x16x4096x64.Idx, ∃ a : ℝ, (m ((c : Thread nD τ).loc main_arg1) : S1x16x4096x64.Idx → EReal) j = (a : EReal))
    (h2 : ∀ j : S1x16x4096x64.Idx, ∃ a : ℝ, (m ((c : Thread nD τ).loc main_arg2) : S1x16x4096x64.Idx → EReal) j = (a : EReal))
    (r : Fin 1024) (d : Fin 64) :
    out0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (ix4 0 0 r d)
      = Cert.Attn.G (m ((c : Thread nD τ).loc main_arg0)) (m ((c : Thread nD τ).loc main_arg1)) (m ((c : Thread nD τ).loc main_arg2)) (((cfg0.win 3).blk t).view.emb (ix4 0 0 r d : S1x1x1024x64.Idx)) := by
  obtain ⟨⟨a0, a1, a2, a3⟩, ⟨b0, b1, b2, b3⟩, ⟨c0, c1, c2, c3⟩, d0, d1, d2, d3⟩ := idx_facts t
  have hH : (⟨win0_3.index t (1 : Fin 4), d1⟩ : Fin 16).val = win0_3.index t (1 : Fin 4) := rfl
  have hS : (⟨win0_3.index t (2 : Fin 4) * 1024 + r.val, by have := r.isLt; omega⟩ : Fin 4096).val
      = win0_3.index t (2 : Fin 4) * 1024 + r.val := rfl
  refine (Rows.block_value c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t)
    (qblk_finite m c t h0) (kblk_finite m c t h1) (vblk_finite m c t h2) r d).trans ?_
  refine Eq.trans ?_ (congrArg (Cert.Attn.G (m ((c : Thread nD τ).loc main_arg0)) (m ((c : Thread nD τ).loc main_arg1)) (m ((c : Thread nD τ).loc main_arg2))) (oblk_emb t r d _ _ hH hS)).symm
  refine Eq.trans ?_ (Cert.Attn.G_ix4 _ _ _ 0 _ _ d).symm
  refine congrArg (fun x : ℝ => (x : EReal)) ?_
  refine rowAttn_eq_attn _ _ _ _ _ _ _ _ r d d (fun e => ?_) (fun t' e => ?_) (fun t' => ?_)
  · exact congrArg EReal.toReal (qblk_apply m c t (ix4 0 0 r e) (ix4 0 _ _ e)
      (show (0 : ℕ) = _ * 1 + 0 by omega) (show win0_3.index t (1 : Fin 4) = _ * 1 + 0 by omega)
      (show win0_3.index t (2 : Fin 4) * 1024 + r.val = _ * 1024 + r.val by omega) (show e.val = _ * 64 + e.val by omega))
  · exact congrArg EReal.toReal (kblk_apply m c t (ix4 0 0 t' e) (ix4 0 _ t' e)
      (show (0 : ℕ) = _ * 1 + 0 by omega) (show win0_3.index t (1 : Fin 4) = _ * 1 + 0 by omega)
      (show t'.val = _ * 4096 + t'.val by omega) (show e.val = _ * 64 + e.val by omega))
  · exact congrArg EReal.toReal (vblk_apply m c t (ix4 0 0 t' d) (ix4 0 _ t' d)
      (show (0 : ℕ) = _ * 1 + 0 by omega) (show win0_3.index t (1 : Fin 4) = _ * 1 + 0 by omega)
      (show t'.val = _ * 4096 + t'.val by omega) (show d.val = _ * 64 + d.val by omega))

/-- The same at any entry of the block: the two leading coordinates of a block entry are 0. -/
theorem point_value' (c : Dev nD) (t : Fin cfg0.N)
    (h0 : ∀ j : S1x16x4096x64.Idx, ∃ a : ℝ, (m ((c : Thread nD τ).loc main_arg0) : S1x16x4096x64.Idx → EReal) j = (a : EReal))
    (h1 : ∀ j : S1x16x4096x64.Idx, ∃ a : ℝ, (m ((c : Thread nD τ).loc main_arg1) : S1x16x4096x64.Idx → EReal) j = (a : EReal))
    (h2 : ∀ j : S1x16x4096x64.Idx, ∃ a : ℝ, (m ((c : Thread nD τ).loc main_arg2) : S1x16x4096x64.Idx → EReal) j = (a : EReal))
    (y : S1x1x1024x64.Idx) :
    out0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) y
      = Cert.Attn.G (m ((c : Thread nD τ).loc main_arg0)) (m ((c : Thread nD τ).loc main_arg1)) (m ((c : Thread nD τ).loc main_arg2)) (((cfg0.win 3).blk t).view.emb y) := by
  obtain ⟨a, b, r, d, rfl⟩ : ∃ (a b : Fin 1) (r : Fin 1024) (d : Fin 64), y = ix4 a b r d :=
    ⟨y 0, y 1, y 2, y 3, eq_ix4 y⟩
  obtain rfl : a = 0 := Subsingleton.elim _ _
  obtain rfl : b = 0 := Subsingleton.elim _ _
  exact point_value m c t h0 h1 h2 r d

/-- What grid point `t` writes back is its block of the attention formula of the three argument arrays. -/
theorem flushed_eq (c : Dev nD)
    (h0 : ∀ j : S1x16x4096x64.Idx, ∃ a : ℝ, (m ((c : Thread nD τ).loc main_arg0) : S1x16x4096x64.Idx → EReal) j = (a : EReal))
    (h1 : ∀ j : S1x16x4096x64.Idx, ∃ a : ℝ, (m ((c : Thread nD τ).loc main_arg1) : S1x16x4096x64.Idx → EReal) j = (a : EReal))
    (h2 : ∀ j : S1x16x4096x64.Idx, ∃ a : ℝ, (m ((c : Thread nD τ).loc main_arg2) : S1x16x4096x64.Idx → EReal) j = (a : EReal))
    (t : Fin cfg0.N) :
    (dats m 0 c).flushed 3 t = ((cfg0.win 3).blk t).view.read (Elt Ideal) (Cert.Attn.G (m ((c : Thread nD τ).loc main_arg0)) (m ((c : Thread nD τ).loc main_arg1)) (m ((c : Thread nD τ).loc main_arg2))) := by
  rw [Value.flushed3_A]
  exact funext fun y => point_value' m c t h0 h1 h2 y

/-- An entry of the result array is in grid point `t`'s block iff on each axis its coordinate is in the block's range. -/
theorem mem_blk (t : Fin cfg0.N) (i : S1x16x4096x64.Idx) :
    i ∈ ((cfg0.win 3).blk t).view.set ↔ ∀ a : Fin 4, win0_3.index t a * S1x1x1024x64.size a ≤ (i a).val
      ∧ (i a).val < win0_3.index t a * S1x1x1024x64.size a + S1x1x1024x64.size a := by
  show i ∈ ((View.whole main_v3).slice (win0_3.rect t)).set ↔ _
  rw [View.set_slice_whole, Rect.mem_set_unit]
  exact Iff.rfl

/-- The 64 blocks tile the result array: entry (0, h, s, d) is in the block of head `h` and row tile `s / 1024`. -/
theorem cover (i : S1x16x4096x64.Idx) :
    ∃ t : Fin cfg0.N, (cfg0.win 3).flush t = true ∧ i ∈ ((cfg0.win 3).blk t).view.set := by
  have hi0 : (i 0).val < 1 := (i 0).isLt
  have hi1 : (i 1).val < 16 := (i 1).isLt
  have hi2 : (i 2).val < 4096 := (i 2).isLt
  have hi3 : (i 3).val < 64 := (i 3).isLt
  obtain ⟨t, q1, q2⟩ := idx_onto ⟨(i 1).val, hi1⟩ ⟨(i 2).val / 1024, by omega⟩
  obtain ⟨-, -, -, d0, d1, d2, d3⟩ := idx_facts t
  have q1' : win0_3.index t (1 : Fin 4) = (i 1).val := q1
  have q2' : win0_3.index t (2 : Fin 4) = (i 2).val / 1024 := q2
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 64 ≤ (i 3).val ∧ (i 3).val < win0_3.index t (3 : Fin 4) * 64 + 64; omega

/-- After the run the result array is the attention formula of the three argument arrays, when their entries are
    finite. -/
theorem final (c : Dev nD)
    (h0 : ∀ j : S1x16x4096x64.Idx, ∃ a : ℝ, (m ((c : Thread nD τ).loc main_arg0) : S1x16x4096x64.Idx → EReal) j = (a : EReal))
    (h1 : ∀ j : S1x16x4096x64.Idx, ∃ a : ℝ, (m ((c : Thread nD τ).loc main_arg1) : S1x16x4096x64.Idx → EReal) j = (a : EReal))
    (h2 : ∀ j : S1x16x4096x64.Idx, ∃ a : ℝ, (m ((c : Thread nD τ).loc main_arg2) : S1x16x4096x64.Idx → EReal) j = (a : EReal)) :
    ((dats m 0 c).arrAt 3 cfg0.N : S1x16x4096x64.Idx → EReal)
      = Cert.Attn.G (m ((c : Thread nD τ).loc main_arg0)) (m ((c : Thread nD τ).loc main_arg1)) (m ((c : Thread nD τ).loc main_arg2)) :=
  (dats m 0 c).arrAt_eq_of_cover 3 (Cert.Attn.G (m ((c : Thread nD τ).loc main_arg0)) (m ((c : Thread nD τ).loc main_arg1)) (m ((c : Thread nD τ).loc main_arg2)))
    (fun t _ => flushed_eq m c h0 h1 h2 t) cover

end Cert.KernelIdeal.Blocks

end
-- ==== Proof.RefValue.lean ====
/-
  The reference program on the extended reals, at finite inputs: scores (sum over e of q k) / 16, each row's
  maximum M subtracted (a finite number, as the scores are), the weights exp(score - M) divided by their sum, and
  the weighted sum of the value rows. Since exp(x - M) = exp(x) exp(-M) with exp(-M) a positive finite factor of
  numerator and denominator alike, this is the formula with no maximum in it.
-/
import proofs.«427505_j39676907882138_3_alg».proof.Proof.Gen.ReferenceIdeal.Read
import proofs.«427505_j39676907882138_3_alg».proof.Proof.OnlineSoftmax
import proofs.«427505_j39676907882138_3_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The f32 word 0x3D800000 is the number 1/16. -/
theorem ofBits_sixteenth : Ideal.ofBits .f32 0x3D800000#32 = ((1 / 16 : ℝ) : EReal) := by
  simp [Ideal.ofBits, Ideal.ieee]
  rw [← EReal.coe_mul]
  congr 1
  norm_num

/-- The f32 word 0xFF800000 is -∞. -/
theorem ofBits_neg_inf : Ideal.ofBits .f32 0xFF800000#32 = (⊥ : EReal) := by
  simp [Ideal.ofBits, Ideal.ieee]

/-- The maximum of finitely many finite numbers, at least one of them, taken from -∞, is a finite number. -/
theorem fold_max_real {n : ℕ} (hn : 0 < n) (op : EReal → EReal → EReal) [Std.Commutative op] [Std.Associative op]
    (hop : ∀ a b, op a b = max a b) (f : Fin n → EReal) (hf : ∀ k, ∃ r : ℝ, f k = (r : EReal)) :
    ∃ M : ℝ, (Finset.univ : Finset (Fin n)).fold op (⊥ : EReal) f = (M : EReal) := by
  have e : op = max := funext fun a => funext fun b => hop a b
  subst e
  have hlt : (Finset.univ : Finset (Fin n)).fold max (⊥ : EReal) f < ⊤ := by
    rw [Finset.fold_max_lt]
    refine ⟨bot_lt_top, fun k _ => ?_⟩
    obtain ⟨r, hr⟩ := hf k
    rw [hr]
    exact EReal.coe_lt_top r
  have hgt : ⊥ < (Finset.univ : Finset (Fin n)).fold max (⊥ : EReal) f := by
    rw [Finset.lt_fold_max]
    obtain ⟨r, hr⟩ := hf ⟨0, hn⟩
    exact Or.inr ⟨⟨0, hn⟩, Finset.mem_univ _, by rw [hr]; exact EReal.bot_lt_coe r⟩
  exact ⟨_, (EReal.coe_toReal hlt.ne hgt.ne').symm⟩

/-- The maximum over the last axis, from -∞, of an array of finite numbers is a finite number at every row. -/
theorem rowmax_real (x : S1x16x4096x4096.Idx → EReal) (hx : ∀ i, ∃ r : ℝ, x i = (r : EReal)) (j : S1x16x4096.Idx) :
    ∃ M : ℝ, Host.reduce (α := EReal) (FloatOps.maximumf (F := Ideal) (φ := .f32)) x (val_main_cst_0 (F := Ideal))
        reducesTo_S1x16x4096x4096_S1x16x4096_d3 h_S_ j = (M : EReal) := by
  rw [Host.reduce_eq_fold_single (α := EReal) (FloatOps.maximumf (F := Ideal) (φ := .f32)) x _
      reducesTo_S1x16x4096x4096_S1x16x4096_d3 (by decide) h_S_,
    val_main_cst_0_apply, Ideal.ofBits_def, ofBits_neg_inf]
  exact fold_max_real (by decide) _ (fun a b => rfl) _ (fun k => hx _)

/-- A softmax-weighted average measured from any reference point M is the quotient with no reference point in it. -/
theorem softmax_shift {n : ℕ} (x v : Fin n → ℝ) (M : ℝ) :
    ∑ t, Real.exp (x t - M) * (1 / ∑ t', Real.exp (x t' - M)) * v t
      = (∑ t, Real.exp (x t) * v t) / (∑ t, Real.exp (x t)) := by
  have hD : ∑ t', Real.exp (x t' - M) = (∑ t', Real.exp (x t')) * Real.exp (-M) := by
    rw [Finset.sum_mul]
    exact Finset.sum_congr rfl (fun t _ => OnlineSoftmax.exp_sub_split _ _)
  rw [hD, Finset.sum_div]
  refine Finset.sum_congr rfl (fun t _ => ?_)
  rw [OnlineSoftmax.exp_sub_split]
  have hM := (Real.exp_pos (-M)).ne'
  by_cases hE : (∑ t', Real.exp (x t')) = 0
  · rw [hE]; simp
  · field_simp

/-! The index maps of the reference's operations, at an index given by its coordinates. -/

/-- The query element a score's term e reads. -/
theorem lidx_v0 (h : Fin 16) (s t : Fin 4096) (e : Fin 64) :
    lidx_main_v0 (ix4 (0 : Fin 1) h s t) e = ix4 (0 : Fin 1) h s e :=
  funext fun a => Fin.ext (by match a with | ⟨0, _⟩ => rfl | ⟨1, _⟩ => rfl | ⟨2, _⟩ => rfl | ⟨3, _⟩ => rfl)

/-- The key element a score's term e reads. -/
theorem ridx_v0 (h : Fin 16) (s t : Fin 4096) (e : Fin 64) :
    ridx_main_v0 (ix4 (0 : Fin 1) h s t) e = ix4 (0 : Fin 1) h t e :=
  funext fun a => Fin.ext (by match a with | ⟨0, _⟩ => rfl | ⟨1, _⟩ => rfl | ⟨2, _⟩ => rfl | ⟨3, _⟩ => rfl)

/-- The row whose reference point is subtracted from the score at (h, s, t). -/
theorem idx_v7 (h : Fin 16) (s t : Fin 4096) :
    idx_main_v6 (idx_main_v7 (ix4 (0 : Fin 1) h s t)) = ix3 (0 : Fin 1) h s :=
  funext fun a => Fin.ext (by match a with | ⟨0, _⟩ => rfl | ⟨1, _⟩ => rfl | ⟨2, _⟩ => rfl)

/-- The row whose sum of weights divides the weight at (h, s, t). -/
theorem idx_v12 (h : Fin 16) (s t : Fin 4096) :
    idx_main_v11 (idx_main_v12 (ix4 (0 : Fin 1) h s t)) = ix3 (0 : Fin 1) h s :=
  funext fun a => Fin.ext (by match a with | ⟨0, _⟩ => rfl | ⟨1, _⟩ => rfl | ⟨2, _⟩ => rfl)

/-- The weight that term t of row (h, s)'s sum reads. -/
theorem idx_v10 (h : Fin 16) (s t : Fin 4096) :
    idx_main_v10 (ix3 (0 : Fin 1) h s) t = ix4 (0 : Fin 1) h s t :=
  funext fun a => Fin.ext (by match a with | ⟨0, _⟩ => rfl | ⟨1, _⟩ => rfl | ⟨2, _⟩ => rfl | ⟨3, _⟩ => rfl)

/-- The normalised weight that term t of the output at (h, s, d) reads. -/
theorem lidx_v14 (h : Fin 16) (s : Fin 4096) (d : Fin 64) (t : Fin 4096) :
    lidx_main_v14 (ix4 (0 : Fin 1) h s d) t = ix4 (0 : Fin 1) h s t :=
  funext fun a => Fin.ext (by match a with | ⟨0, _⟩ => rfl | ⟨1, _⟩ => rfl | ⟨2, _⟩ => rfl | ⟨3, _⟩ => rfl)

/-- The value element that term t of the output at (h, s, d) reads. -/
theorem ridx_v14 (h : Fin 16) (s : Fin 4096) (d : Fin 64) (t : Fin 4096) :
    ridx_main_v14 (ix4 (0 : Fin 1) h s d) t = ix4 (0 : Fin 1) h t d :=
  funext fun a => Fin.ext (by match a with | ⟨0, _⟩ => rfl | ⟨1, _⟩ => rfl | ⟨2, _⟩ => rfl | ⟨3, _⟩ => rfl)

section Chain

variable (q k v : (⟨S1x16x4096x64, .f32⟩ : BufTy).Contents (Elt Ideal)) (qr kr vr : Cert.Attn.SQ.Idx → ℝ)
  (hq : ∀ j, q j = (qr j : EReal)) (hk : ∀ j, k j = (kr j : EReal)) (hv : ∀ j, v j = (vr j : EReal))

include hq hk in
/-- The scaled scores of the reference are the formula's scores. -/
theorem v2_apply (h : Fin 16) (s t : Fin 4096) :
    val_main_v2 (F := Ideal) q k (ix4 (0 : Fin 1) h s t) = ((Cert.Attn.score qr kr h s t : ℝ) : EReal) := by
  rw [val_main_v2_apply, val_main_v0_apply, val_main_v1_apply, val_main_cst_apply, Ideal.mulf_def, Ideal.ofBits_def,
    ofBits_sixteenth]
  simp only [lidx_v0, ridx_v0, hq, hk, ← EReal.coe_mul, ← OnlineSoftmax.coe_sum]
  rfl

include hq hk in
/-- Every scaled score is a finite number. -/
theorem v2_real (i : S1x16x4096x4096.Idx) : ∃ r : ℝ, val_main_v2 (F := Ideal) q k i = (r : EReal) := by
  obtain ⟨b, h, s, t, rfl⟩ : ∃ (b : Fin 1) (h : Fin 16) (s t : Fin 4096), i = ix4 b h s t :=
    ⟨i 0, i 1, i 2, i 3, ValueIdx.eq_ix4 i⟩
  obtain rfl : b = 0 := Subsingleton.elim _ _
  exact ⟨_, v2_apply q k qr kr hq hk h s t⟩

include hq hk in
/-- The number subtracted from a row's scores, the larger of -∞ and the row's maximum, is a finite number. -/
theorem v5_real (j : S1x16x4096.Idx) : ∃ M : ℝ, val_main_v5 (F := Ideal) q k j = (M : EReal) := by
  obtain ⟨M, hM⟩ := rowmax_real (val_main_v2 (F := Ideal) q k) (v2_real q k qr kr hq hk) j
  refine ⟨M, ?_⟩
  rw [val_main_v5_apply, val_main_v4_apply, val_main_cst_1_apply, Ideal.maximumf_def, Ideal.ofBits_def, ofBits_neg_inf]
  unfold val_main_v3
  rw [hM]
  exact max_eq_right bot_le

include hq hk in
/-- The weights: exp of a score less the row's reference point M. -/
theorem v9_apply (h : Fin 16) (s : Fin 4096) (M : ℝ)
    (hM : val_main_v5 (F := Ideal) q k (ix3 (0 : Fin 1) h s) = (M : EReal)) (t : Fin 4096) :
    val_main_v9 (F := Ideal) q k (ix4 (0 : Fin 1) h s t)
      = ((Real.exp (Cert.Attn.score qr kr h s t - M) : ℝ) : EReal) := by
  rw [val_main_v9_apply, val_main_v8_apply, val_main_v7_apply, val_main_v6_apply, idx_v7, hM,
    v2_apply q k qr kr hq hk, Ideal.hostUnary_exp_def, Ideal.subf_def, ← EReal.coe_sub, Ideal.exp_coe]

include hq hk in
/-- The sum of a row's weights. -/
theorem v10_apply (h : Fin 16) (s : Fin 4096) (M : ℝ)
    (hM : val_main_v5 (F := Ideal) q k (ix3 (0 : Fin 1) h s) = (M : EReal)) :
    val_main_v10 (F := Ideal) q k (ix3 (0 : Fin 1) h s)
      = ((∑ t : Fin 4096, Real.exp (Cert.Attn.score qr kr h s t - M) : ℝ) : EReal) := by
  rw [val_main_v10_apply, val_main_cst_2_apply, Ideal.ofBits_def, Ideal.ofBits_zero_f32, zero_add, OnlineSoftmax.coe_sum]
  refine Finset.sum_congr rfl (fun t _ => ?_)
  rw [idx_v10, v9_apply q k qr kr hq hk h s M hM t]

include hq hk in
/-- The normalised weights. -/
theorem v13_apply (h : Fin 16) (s : Fin 4096) (M : ℝ)
    (hM : val_main_v5 (F := Ideal) q k (ix3 (0 : Fin 1) h s) = (M : EReal)) (t : Fin 4096) :
    val_main_v13 (F := Ideal) q k (ix4 (0 : Fin 1) h s t)
      = ((Real.exp (Cert.Attn.score qr kr h s t - M)
          * (1 / ∑ t' : Fin 4096, Real.exp (Cert.Attn.score qr kr h s t' - M)) : ℝ) : EReal) := by
  have hD : (∑ t' : Fin 4096, Real.exp (Cert.Attn.score qr kr h s t' - M)) ≠ 0 :=
    (Finset.sum_pos (fun _ _ => Real.exp_pos _) ⟨0, Finset.mem_univ _⟩).ne'
  rw [val_main_v13_apply, val_main_v12_apply, val_main_v11_apply, idx_v12, v10_apply q k qr kr hq hk h s M hM,
    v9_apply q k qr kr hq hk h s M hM t, Ideal.hostDivf_def, Ideal.div_coe hD, ← EReal.coe_mul]

include hq hk hv in
/-- The reference's result at an index is the attention formula there. -/
theorem v14_apply (h : Fin 16) (s : Fin 4096) (d : Fin 64) :
    val_main_v14 (F := Ideal) q k v (ix4 (0 : Fin 1) h s d) = ((Cert.Attn.attn qr kr vr h s d : ℝ) : EReal) := by
  obtain ⟨M, hM⟩ := v5_real q k qr kr hq hk (ix3 (0 : Fin 1) h s)
  have ht : ∀ t : Fin 4096,
      val_main_v13 (F := Ideal) q k (lidx_main_v14 (ix4 (0 : Fin 1) h s d) t) * v (ridx_main_v14 (ix4 (0 : Fin 1) h s d) t)
        = ((Real.exp (Cert.Attn.score qr kr h s t - M)
            * (1 / ∑ t' : Fin 4096, Real.exp (Cert.Attn.score qr kr h s t' - M)) * vr (ix4 (0 : Fin 1) h t d) : ℝ) : EReal) := by
    intro t
    rw [lidx_v14, ridx_v14, v13_apply q k qr kr hq hk h s M hM t, hv, ← EReal.coe_mul]
  rw [val_main_v14_apply, Finset.sum_congr rfl (fun t _ => ht t), ← OnlineSoftmax.coe_sum,
    softmax_shift (fun t => Cert.Attn.score qr kr h s t) (fun t => vr (ix4 (0 : Fin 1) h t d)) M]
  rfl

end Chain

/-- The reference's result, as a function of its three arguments with finite entries, is the attention formula. -/
theorem ref_eq (q k v : (⟨S1x16x4096x64, .f32⟩ : BufTy).Contents (Elt Ideal))
    (hq : ∀ j, ∃ a : ℝ, q j = (a : EReal)) (hk : ∀ j, ∃ a : ℝ, k j = (a : EReal)) (hv : ∀ j, ∃ a : ℝ, v j = (a : EReal)) :
    val_main_v14 (F := Ideal) q k v = Cert.Attn.G q k v := by
  have hq' : ∀ j, q j = (((q j).toReal : ℝ) : EReal) := fun j => by
    obtain ⟨a, ha⟩ := hq j
    rw [ha, EReal.toReal_coe]
  have hk' : ∀ j, k j = (((k j).toReal : ℝ) : EReal) := fun j => by
    obtain ⟨a, ha⟩ := hk j
    rw [ha, EReal.toReal_coe]
  have hv' : ∀ j, v j = (((v j).toReal : ℝ) : EReal) := fun j => by
    obtain ⟨a, ha⟩ := hv j
    rw [ha, EReal.toReal_coe]
  funext i
  obtain ⟨b, h, s, d, rfl⟩ : ∃ (b : Fin 1) (h : Fin 16) (s : Fin 4096) (d : Fin 64), i = ix4 b h s d :=
    ⟨i 0, i 1, i 2, i 3, ValueIdx.eq_ix4 i⟩
  obtain rfl : b = 0 := Subsingleton.elim _ _
  rw [Cert.Attn.G_ix4]
  exact v14_apply q k v _ _ _ hq' hk' hv' h s d

end Cert.ReferenceIdeal.RefValue

end
-- ==== Proof.Finite.lean ====
/-
  The precondition says of each float argument that every entry's absolute value is below +∞. On the extended
  reals that is: no entry is +∞ or -∞, so every entry is a real number.
-/
import proofs.«427505_j39676907882138_3_alg».proof.Defs
import proofs.«427505_j39676907882138_3_alg».proof.Proof.Gen.Pre_finite_inputs
import Idealize.ShloMosaic.Lib.ReduceAll
import Idealize.ShloMosaic.Lib.ValueIdx

noncomputable section

namespace Cert.Finite

open Idealize.ShloMosaic Idealize.SL.Sem

/-- An extended real whose absolute value, the larger of x and -x, is below +∞ is a real number:
    at -∞ the negation is +∞, and at +∞ the value itself is. -/
theorem real_of_abs_lt_top (x : EReal) (hx : max x (-x) < ⊤) : ∃ a : ℝ, x = (a : EReal) := by
  induction x using EReal.rec with
  | bot => simp at hx
  | coe a => exact ⟨a, rfl⟩
  | top => simp at hx

/-- The f32 word 0x7F800000 denotes +∞. -/
theorem inf_word : Ideal.ofBits .f32 0x7F800000#32 = (⊤ : EReal) := by
  simp [Ideal.ofBits, Ideal.ieee]

/-- One entry: when the comparison |x| < +∞ comes out true, x is a real number. The absolute value is
    max x (-x) and the comparison is the strict order of the extended reals. -/
theorem real_of_cmp (x : Ideal .f32)
    (h : FloatOps.cmpf (F := Ideal) .olt (FloatOps.hostAbsf x) (FloatOps.ofBits .f32 0x7F800000#32) = 1#1) :
    ∃ a : ℝ, (x : EReal) = (a : EReal) := by
  apply real_of_abs_lt_top
  have h' : Ideal.cmp .olt (max (x : EReal) (-x)) (Ideal.ofBits .f32 0x7F800000#32) = 1#1 := h
  rw [inf_word] at h'
  unfold Ideal.cmp at h'
  by_contra hc
  simp [hc] at h'

/-- The predicate over any five arrays: if it comes out true, the three large float arrays hold real
    numbers only. The predicate is a conjunction of four tests "every entry satisfies |x| < +∞", one per
    float array; a conjunction that is true has every conjunct true, and a test over all entries that is
    true holds at each entry. -/
theorem reals_of_fn
    (x0 x1 x2 : FVec Ideal Cert.Pre_finite_inputs.S1x16x4096x64 .f32)
    (x3 : FVec Ideal Cert.Pre_finite_inputs.S1 .f32) (x4 : IVec Cert.Pre_finite_inputs.S1 1)
    (h : Cert.Pre_finite_inputs.fn (F := Ideal) x0 x1 x2 x3 x4 = fun _ => 1#1) :
    (∀ j, ∃ a : ℝ, (x0 j : EReal) = (a : EReal))
    ∧ (∀ j, ∃ a : ℝ, (x1 j : EReal) = (a : EReal))
    ∧ (∀ j, ∃ a : ℝ, (x2 j : EReal) = (a : EReal)) := by
  -- a rank-0 array has exactly one index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  -- ((t0 ∧ t1) ∧ t2) ∧ t3: the first three conjuncts are the tests of q, k and v
  obtain ⟨h012, -⟩ := IntOp.andi_eq_one.1 h0
  obtain ⟨h01, h2⟩ := IntOp.andi_eq_one.1 h012
  obtain ⟨h0', h1⟩ := IntOp.andi_eq_one.1 h01
  refine ⟨fun j => ?_, fun j => ?_, fun j => ?_⟩
  · exact real_of_cmp (x0 j) (Host.reduce_andi_all _ _ _ _ _ h0' j)
  · exact real_of_cmp (x1 j) (Host.reduce_andi_all _ _ _ _ _ h1 j)
  · exact real_of_cmp (x2 j) (Host.reduce_andi_all _ _ _ _ _ h2 j)

/-- Under the precondition, q, k and v hold real numbers only. -/
theorem reals_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j : Cert.KernelIdeal.S1x16x4096x64.Idx, ∃ a : ℝ,
        (m ((c.tc : Thread Cert.KernelIdeal.nD Cert.KernelIdeal.τ).loc Cert.KernelIdeal.main_arg0) : Cert.KernelIdeal.S1x16x4096x64.Idx → EReal) j = (a : EReal))
    ∧ (∀ j : Cert.KernelIdeal.S1x16x4096x64.Idx, ∃ a : ℝ,
        (m ((c.tc : Thread Cert.KernelIdeal.nD Cert.KernelIdeal.τ).loc Cert.KernelIdeal.main_arg1) : Cert.KernelIdeal.S1x16x4096x64.Idx → EReal) j = (a : EReal))
    ∧ (∀ j : Cert.KernelIdeal.S1x16x4096x64.Idx, ∃ a : ℝ,
        (m ((c.tc : Thread Cert.KernelIdeal.nD Cert.KernelIdeal.τ).loc Cert.KernelIdeal.main_arg2) : Cert.KernelIdeal.S1x16x4096x64.Idx → EReal) j = (a : EReal)) :=
  reals_of_fn _ _ _ _ _ (h c)

end Cert.Finite

end
-- ==== Proof.lean ====
/-
  A streaming-softmax attention kernel against plain softmax attention, over the extended reals, at finite inputs.

  The kernel handles, per head, 1024 query rows at a time: it scales them by 1/16, then passes four times over 1024
  key and value rows, carrying per query row a reference point (the largest score so far, started from a finite
  negative number), the sum of exp(score - reference) and the matching weighted sum of value rows, rescaling both
  sums by exp(old reference - new reference) at each pass, and divides at the end. The reference forms all scores
  (inner products divided by 16), subtracts each row's maximum, exponentiates, normalises and takes the weighted sum.

  Both are the quotient (sum over keys of exp(score) value) / (sum over keys of exp(score)): the exponent's reference
  point multiplies numerator and denominator by one positive finite factor, whatever it is and however often it is
  moved. That needs the scores to be finite, which the precondition gives (every entry of q, k, v is a real number);
  the law used, distributing a finite factor over a finite sum of finite numbers, fails at the infinities.
  A change of float format is the identity on the extended reals, and the kernel's idealization rewrote nothing.
-/
import proofs.«427505_j39676907882138_3_alg».proof.Defs
import proofs.«427505_j39676907882138_3_alg».proof.Proof.Gen.Kernel
import proofs.«427505_j39676907882138_3_alg».proof.Proof.Gen.Kernel.Skeleton
import proofs.«427505_j39676907882138_3_alg».proof.Proof.Gen.Kernel.Loops
import proofs.«427505_j39676907882138_3_alg».proof.Proof.Gen.Kernel.Launch
import proofs.«427505_j39676907882138_3_alg».proof.Proof.Gen.Kernel.Points
import proofs.«427505_j39676907882138_3_alg».proof.Proof.Gen.Kernel.Frame
import proofs.«427505_j39676907882138_3_alg».proof.Proof.Gen.KernelIdeal
import proofs.«427505_j39676907882138_3_alg».proof.Proof.Gen.KernelIdeal.Skeleton
import proofs.«427505_j39676907882138_3_alg».proof.Proof.Gen.KernelIdeal.Loops
import proofs.«427505_j39676907882138_3_alg».proof.Proof.Gen.KernelIdeal.Launch
import proofs.«427505_j39676907882138_3_alg».proof.Proof.Gen.KernelIdeal.Points
import proofs.«427505_j39676907882138_3_alg».proof.Proof.Gen.KernelIdeal.Frame
import proofs.«427505_j39676907882138_3_alg».proof.Proof.Gen.ReferenceIdeal
import proofs.«427505_j39676907882138_3_alg».proof.Proof.Gen.KernelIdeal.Value
import proofs.«427505_j39676907882138_3_alg».proof.Proof.Gen.ReferenceIdeal.Run
import proofs.«427505_j39676907882138_3_alg».proof.Proof.Gen.ReferenceIdeal.Read
import proofs.«427505_j39676907882138_3_alg».proof.Proof.Gen.Pre_finite_inputs
import Idealize.ShloMosaic.Adequacy
import Idealize.ShloMosaic.Init
import proofs.«427505_j39676907882138_3_alg».proof.Proof.Blocks
import proofs.«427505_j39676907882138_3_alg».proof.Proof.RefValue
import proofs.«427505_j39676907882138_3_alg».proof.Proof.Finite

noncomputable section

namespace Cert.Proof

open Idealize.ShloMosaic Idealize.SL.Sem

/-- The three programs run to the end without a fault and leave their arguments alone. -/
theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

/-- From memories that agree on q, k, v, with finite entries, both programs end with the attention formula of
    those arrays in their result: the kernel block by block through its four passes, the reference through its
    row maxima. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Value.run_blocks (F := Ideal) m ρ)
    obtain ⟨f0, f1, f2⟩ := Cert.Finite.reals_of_pre m hpre c
    exact Cert.KernelIdeal.Blocks.final m c f0 f1 f2
  · refine (θ_run Cert.ReferenceIdeal.defs _ _).mono (fun r h c => ⟨(h c).1.trans ?_, (h c).2⟩)
      (Cert.ReferenceIdeal.Value.run (F := Ideal) m' ρ')
    obtain ⟨f0, f1, f2⟩ := Cert.Finite.reals_of_pre m hpre c
    rw [Cert.ReferenceIdeal.Read.val_main_v14_eq, (hagree c).1, (hagree c).2.1, (hagree c).2.2.1]
    exact Cert.ReferenceIdeal.RefValue.ref_eq _ _ _ f0 f1 f2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
